-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S4096x1 : S_.BroadcastsInDim S4096x1 (![] : Fin 0 → Fin S4096x1.rank)
  reducesTo_S4096x1_S_d0_1 : S4096x1.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S32000x1 : S_.BroadcastsInDim S32000x1 (![] : Fin 0 → Fin S32000x1.rank)
  reducesTo_S32000x1_S_d0_1 : S32000x1.ReducesTo [0, 1] S_

variable [Facts]

def fn_part3 {F : FTy → Type} [FloatOps F] (main_arg11 : FVec F S32000x4096 .f32) (main_arg12 : FVec F S32000x1 .f32) (main_v48 : IVec S_ 1) (main_v49 : FVec F S4096x1 .f32) (main_v50 : FVec F S4096x1 .f32) : IVec S_ 1 :=
  let main_v51 : IVec S4096x1 1 := cmpf .olt main_v49 main_v50
  let main_c_19 : IVec S_ 1 := constantI S_ 1 1#1
  let main_v52 : IVec S_ 1 := (fun x v => Host.reduce IntOp.andi x v reducesTo_S4096x1_S_d0_1 h_S_) main_v51 main_c_19
  let main_v53 : IVec S_ 1 := andi main_v48 main_v52
  let main_v54 : FVec F S32000x4096 .f32 := Host.absf main_arg11
  let main_cst_20 : FVec F S_ .f32 := constant S_ .f32 0x7F800000#32
  let main_v55 : FVec F S32000x4096 .f32 := broadcastInDim S32000x4096 ![] bcast_S_S32000x4096 main_cst_20
  let main_v56 : IVec S32000x4096 1 := cmpf .olt main_v54 main_v55
  let main_c_21 : IVec S_ 1 := constantI S_ 1 1#1
  let main_v57 : IVec S_ 1 := (fun x v => Host.reduce IntOp.andi x v reducesTo_S32000x4096_S_d0_1 h_S_) main_v56 main_c_21
  let main_v58 : IVec S_ 1 := andi main_v53 main_v57
  let main_v59 : FVec F S32000x1 .f32 := Host.absf main_arg12
  let main_cst_22 : FVec F S_ .f32 := constant S_ .f32 0x7F800000#32
  let main_v60 : FVec F S32000x1 .f32 := broadcastInDim S32000x1 ![] bcast_S_S32000x1 main_cst_22
  let main_v61 : IVec S32000x1 1 := cmpf .olt main_v59 main_v60
  let main_c_23 : IVec S_ 1 := constantI S_ 1 1#1
  let main_v62 : IVec S_ 1 := (fun x v => Host.reduce IntOp.andi x v reducesTo_S32000x1_S_d0_1 h_S_) main_v61 main_c_23
  let main_v63 : IVec S_ 1 := andi main_v58 main_v62
  main_v63

def fn_part2 {F : FTy → Type} [FloatOps F] (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S4096x1 .f32 := Host.absf main_arg10
  let main_cst_18 : FVec F S_ .f32 := constant S_ .f32 0x7F800000#32
  let main_v50 : FVec F S4096x1 .f32 := broadcastInDim S4096x1 ![] bcast_S_S4096x1 main_cst_18
  fn_part3 (F := F) main_arg11 main_arg12 main_v48 main_v49 main_v50

def fn_part1 {F : FTy → Type} [FloatOps F] (main_arg4 : FVec F S4096x1 .f32) (main_arg5 : FVec F S4096x8192 .f32) (main_arg6 : FVec F S4096x1 .f32) (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x4096 .f32) (main_arg1 : FVec F S1x4096 .f32) (main_arg2 : FVec F S1x4096 .f32) (main_arg3 : FVec F S4096x8192 .f32) (main_arg4 : FVec F S4096x1 .f32) (main_arg5 : FVec F S4096x8192 .f32) (main_arg6 : FVec F S4096x1 .f32) (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_v13 main_v16
-- ==== Kernel.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S1x8192 : Shape := ⟨2, ![1, 8192]⟩
abbrev S1x1024 : Shape := ⟨2, ![1, 1024]⟩
abbrev S1024x1024 : Shape := ⟨2, ![1024, 1024]⟩
abbrev S1x32000 : Shape := ⟨2, ![1, 32000]⟩
abbrev S3200x1024 : Shape := ⟨2, ![3200, 1024]⟩
abbrev S1x3200 : Shape := ⟨2, ![1, 3200]⟩
abbrev S_ : Shape := ⟨0, ![]⟩
abbrev S1 : Shape := ⟨1, ![1]⟩
abbrev S1x1 : Shape := ⟨2, ![1, 1]⟩

abbrev nBuf : Space → Nat
  | .hbm => 37
  | .vmem => 37
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x8192, .f32⟩
  | .hbm, ⟨4, _⟩ => ⟨S4096x1, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x1, .f32⟩
  | .hbm, ⟨9, _⟩ => ⟨S4096x8192, .f32⟩
  | .hbm, ⟨10, _⟩ => ⟨S4096x1, .f32⟩
  | .hbm, ⟨11, _⟩ => ⟨S32000x4096, .f32⟩
  | .hbm, ⟨12, _⟩ => ⟨S32000x1, .f32⟩
  | .hbm, ⟨13, _⟩ => ⟨S1x8192, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x32000, .f32⟩
  | .hbm, ⟨21, _⟩ => ⟨S1x32000, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S1x32000, .f32⟩
  | .hbm, ⟨29, _⟩ => ⟨S1x32000, .f32⟩
  | .hbm, ⟨30, _⟩ => ⟨S1x32000, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S1x1, .f32⟩
  | .hbm, ⟨35, _⟩ => ⟨S1x32000, .f32⟩
  | .hbm, ⟨36, _⟩ => ⟨S1x32000, .f32⟩
  | .local _ .vmem, ⟨0, _⟩ => ⟨S1x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S3200x1024, .f32⟩
  | .local _ .vmem, ⟨31, _⟩ => ⟨S3200x1024, .f32⟩
  | .local _ .vmem, ⟨32, _⟩ => ⟨S1x3200, .f32⟩
  | .local _ .vmem, ⟨33, _⟩ => ⟨S1x3200, .f32⟩
  | .local _ .vmem, ⟨34, _⟩ => ⟨S1x3200, .f32⟩
  | .local _ .vmem, ⟨35, _⟩ => ⟨S1x3200, .f32⟩
  | .local _ .vmem, ⟨36, _⟩ => ⟨S1x3200, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![10, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1x4096_S1x4096_S1x8192_d1 : Shape.Concatenates [S1x4096, S1x4096] S1x8192 1
  shapeCasts_S4096x1_S1x4096 : S4096x1.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S32000x1_S1x32000 : S32000x1.ShapeCasts S1x32000
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  inb_S3200x1024_S3200x1024_0_0 : ∀ a, (![0, 0] : Fin 2 → Nat) a + S3200x1024.size a ≤ S3200x1024.size a
  h_S3200x1024 : 0 < S3200x1024.numel
  reducesTo_S1x32000_S1_d1 : S1x32000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32000_0_1 : S1x1.BroadcastsInDim S1x32000 (![0, 1] : Fin 2 → Fin S1x32000.rank)
  dot_S1x1024_S1024x1024_S1x1024_1_1_0_0_n_n_wf : DotDims.WF S1x1024 S1024x1024 S1x1024 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .f32 = 32 ∨ (Rect.block (s := S4096x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x8192.size a
  hwx0_4 : ∀ i : grid0.Coords, EltTy.bits .f32 = 32 ∨ (Rect.block (s := S4096x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x4096.size a
  hwx0_8 : ∀ i : grid0.Coords, EltTy.bits .f32 = 32 ∨ (Rect.block (s := S1x4096) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x4096.size a
  hwx0_9 : ∀ i : grid0.Coords, EltTy.bits .f32 = 32 ∨ (Rect.block (s := S1x4096) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x4096.size a
  hwx0_10 : ∀ i : grid0.Coords, EltTy.bits .f32 = 32 ∨ (Rect.block (s := S1x4096) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x4096.size a
  hwx0_11 : ∀ i : grid0.Coords, EltTy.bits .f32 = 32 ∨ (Rect.block (s := S1x4096) S1x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .f32 = 32 ∨ (Rect.block (s := S1x4096) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x1024.size a ≤ S32000x4096.size a
  hwx1_1 : ∀ i : grid1.Coords, EltTy.bits .f32 = 32 ∨ (Rect.block (s := S32000x4096) S3200x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3200.size a ≤ S1x32000.size a
  hwx1_3 : ∀ i : grid1.Coords, EltTy.bits .f32 = 32 ∨ (Rect.block (s := S1x32000) S1x3200.size (cc1_transform_3 i) (hinb1_3 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v5_0) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S3200x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S1x8192 : Shape := ⟨2, ![1, 8192]⟩
abbrev S8192x1 : Shape := ⟨2, ![8192, 1]⟩
abbrev S_ : Shape := ⟨0, ![]⟩
abbrev S1x32000 : Shape := ⟨2, ![1, 32000]⟩
abbrev S1 : Shape := ⟨1, ![1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x8192, .f32⟩
  | .hbm, ⟨4, _⟩ => ⟨S4096x1, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x1, .f32⟩
  | .hbm, ⟨9, _⟩ => ⟨S4096x8192, .f32⟩
  | .hbm, ⟨10, _⟩ => ⟨S4096x1, .f32⟩
  | .hbm, ⟨11, _⟩ => ⟨S32000x4096, .f32⟩
  | .hbm, ⟨12, _⟩ => ⟨S32000x1, .f32⟩
  | .hbm, ⟨13, _⟩ => ⟨S1x8192, .f32⟩
  | .hbm, ⟨14, _⟩ => ⟨S8192x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S32000x1, .f32⟩
  | .hbm, ⟨55, _⟩ => ⟨S32000x1, .f32⟩
  | .hbm, ⟨56, _⟩ => ⟨S1x32000, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S1x1, .f32⟩
  | .hbm, ⟨63, _⟩ => ⟨S1x32000, .f32⟩
  | .hbm, ⟨64, _⟩ => ⟨S1x32000, .f32⟩
  | .hbm, ⟨65, _⟩ => ⟨S1x32000, .f32⟩
  | .hbm, ⟨66, _⟩ => ⟨S_, .f32⟩
  | .hbm, ⟨67, _⟩ => ⟨S1, .f32⟩
  | .hbm, ⟨68, _⟩ => ⟨S1x1, .f32⟩
  | .hbm, ⟨69, _⟩ => ⟨S1x1, .f32⟩
  | .hbm, ⟨70, _⟩ => ⟨S1x32000, .f32⟩
  | .hbm, ⟨71, _⟩ => ⟨S1x32000, .f32⟩
  | .hbm, ⟨72, _⟩ => ⟨S1x4096, .f32⟩
  | .hbm, ⟨73, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_cst_1 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩

abbrev nD : Nat := 1
abbrev τ : Topo := Topo.v7x

variable {F : FTy → Type} [FloatOps F]

class Facts₀ : Prop where
  concatenates_S1x4096_S1x4096_S1x8192_d1 : Shape.Concatenates [S1x4096, S1x4096] S1x8192 1
  transposes_S1x8192_S8192x1_1_0 : S1x8192.Transposes [1, 0] S8192x1
  bcast_S_S4096x1 : S_.BroadcastsInDim S4096x1 (![] : Fin 0 → Fin S4096x1.rank)
  transposes_S1x4096_S4096x1_1_0 : S1x4096.Transposes [1, 0] S4096x1
  transposes_S32000x1_S1x32000_1_0 : S32000x1.Transposes [1, 0] S1x32000
  reducesTo_S1x32000_S1_d1 : S1x32000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32000_0_1 : S1x1.BroadcastsInDim S1x32000 (![0, 1] : Fin 2 → Fin S1x32000.rank)
  transposes_S4096x1_S1x4096_1_0 : S4096x1.Transposes [1, 0] S1x4096
  dot_S4096x8192_S8192x1_S4096x1_1_0_0_1_n_n_wf : DotDims.WF S4096x8192 S8192x1 S4096x1 [1] [0] [0] [1] [] []
  dot_S32000x4096_S4096x1_S32000x1_1_0_0_1_n_n_wf : DotDims.WF S32000x4096 S4096x1 S32000x1 [1] [0] [0] [1] [] []

variable [Facts₀]

def dot_S4096x8192_S8192x1_S4096x1_1_0_0_1_n_n : DotDims S4096x8192 S8192x1 S4096x1 where
  lhsContracting := [1]
  rhsContracting := [0]
  lhsNonContracting := [0]
  rhsNonContracting := [1]
  lhsBatch := []
  rhsBatch := []
  wf := dot_S4096x8192_S8192x1_S4096x1_1_0_0_1_n_n_wf
def dot_S32000x4096_S4096x1_S32000x1_1_0_0_1_n_n : DotDims S32000x4096 S4096x1 S32000x1 where
  lhsContracting := [1]
  rhsContracting := [0]
  lhsNonContracting := [0]
  rhsNonContracting := [1]
  lhsBatch := []
  rhsBatch := []
  wf := dot_S32000x4096_S4096x1_S32000x1_1_0_0_1_n_n_wf

class Facts : Prop extends Facts₀ where

variable [Facts]
-- ==== Proof.KI.R0Runs.lean ====
/- Region 0 of @main (custom_call 0, the gates kernel, grid 4 × 8) at the contents `V` the region is entered with:
   what the three cases of the body's run share. Each window's block at a point; an input's staging buffer holds its
   block at every point, fetched there or not; the body's two branch conditions (first and last step of the
   contraction axis) in closed form over the 32 points; where the two output windows are idle; the staging and scratch
   memrefs; and the region invariant with the four accumulators named. -/
import proofs.«140296_j21131239097236_1_alg».proof.Proof.Gen.KernelIdeal.Launch
import proofs.«140296_j21131239097236_1_alg».proof.Proof.Gen.KernelIdeal.Skeleton
import proofs.«140296_j21131239097236_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (unfetched, the
    block index has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (unfetched, the
    block index has not moved), for any proof data whose array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the contraction step is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (the contraction step is the last), from the grid coordinates. -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- Window 7 is never idle (an input). -/
theorem liveAt0_7 : ∀ t : Fin cfg0.N, cfg0.idle 7 (grid0.coords t) = false := by decide +kernel
/-- Window 8 is never idle (an input). -/
theorem liveAt0_8 : ∀ t : Fin cfg0.N, cfg0.idle 8 (grid0.coords t) = false := by decide +kernel
/-- Window 9 is never idle (an input). -/
theorem liveAt0_9 : ∀ t : Fin cfg0.N, cfg0.idle 9 (grid0.coords t) = false := by decide +kernel
/-- At the points of case A output 10 is idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B output 10 is idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C output 10 is live: the case stores into it. -/
theorem liveAt0_10_C : ∀ t : Fin cfg0.N, ¬cond0_0 (grid0.coords t) → cond0_1 (grid0.coords t) → cfg0.idle 10 (grid0.coords t) = false := by decide +kernel
/-- At the points of case A output 11 is idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B output 11 is idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C output 11 is live: the case stores into it. -/
theorem liveAt0_11_C : ∀ t : Fin cfg0.N, ¬cond0_0 (grid0.coords t) → cond0_1 (grid0.coords t) → cfg0.idle 11 (grid0.coords t) = false := by decide +kernel

/-! ## The staging and scratch memrefs -/

/-- One staging buffer of output window 10, through which its contents are stated (the choice does not matter). -/
abbrev VO0_10 : View sig .tc .vmem S1x1024 .f32 := (Memref.whole cc0_stg10_0 : Memref sig .tc .vmem S1x1024 .f32).view
/-- One staging buffer of output window 11, through which its contents are stated (the choice does not matter). -/
abbrev VO0_11 : View sig .tc .vmem S1x1024 .f32 := (Memref.whole cc0_stg11_0 : Memref sig .tc .vmem S1x1024 .f32).view
/-- Each window's current staging memref at point `t`, spelled as the pipeline passes it, and its wholeness. -/
abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
/-- The scratch operands (the four gate accumulators): whole scoped buffers of the kernel's own, passed beside the windows. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev scM0_3 : Memref sig .tc .vmem S1x1024 .f32 := Memref.whole cc0_scratch3
/-- The same as views: what each accumulator holds between points is stated through them. -/
abbrev VS0_0 : View sig .tc .vmem S1x1024 .f32 := scM0_0.view
abbrev VS0_1 : View sig .tc .vmem S1x1024 .f32 := scM0_1.view
abbrev VS0_2 : View sig .tc .vmem S1x1024 .f32 := scM0_2.view
abbrev VS0_3 : View sig .tc .vmem S1x1024 .f32 := scM0_3.view

/-- The core's scoped buffers that are neither a staging buffer nor a scratch operand of this region (the other region's
    staging buffers and scratch), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region invariant with the scratch operands as memrefs owned at some contents: what the body obligation hands
    the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA rest0; rw [scopedRest0_eq]; simp only [scM0_0, scM0_1, scM0_2, scM0_3, owns_whole]; try rfl

end Cert.KernelIdeal.Frm

end
-- ==== Proof.KI.R0RunA.lean ====
/- Region 0's body in CASE A (the first step of the contraction axis, which is not the last): the whole-body run, whose witness is the
   pieces each accumulator ends with. The body zeroes the four accumulators, then adds to each the product of the bf16-rounded
   input block with the bf16-rounded weight block; the two outputs are not touched. -/
import proofs.«140296_j21131239097236_1_alg».proof.Proof.KI.R0Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output's staging memref and in each of the four accumulators, as pieces (last first), IN CASE A
    (first contraction step, not the last: t % 8 = 0), WITH the proof that on whole memrefs — the inputs' at their contents, the two
    outputs' (idle here) at contents handed back untouched, the accumulators at anything — the body runs to the continuation holding
    the inputs' as they were and each accumulator with its pieces written. The pieces are the witness the run finds. -/
noncomputable def kernelRun0_A (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    Σ' (L10 : List (View.Piece (Elt F) S1x1024 .f32)) (L11 : List (View.Piece (Elt F) S1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.KernelIdeal.Frm

end
-- ==== Proof.KI.R0RunB.lean ====
/- Region 0's body in CASE B (a step of the contraction axis that is neither the first nor the last): the whole-body run. Each
   accumulator, entering at what the step before left, has the product of the bf16-rounded input block with the bf16-rounded
   weight block added to it; the two outputs are not touched. -/
import proofs.«140296_j21131239097236_1_alg».proof.Proof.KI.R0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE B (neither the first nor the last contraction step: 0 < t % 8 < 7): the accumulators enter at the contents the point
    before left (`xs·`); the two outputs are idle and handed back untouched. -/
noncomputable def kernelRun0_B (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (L10 : List (View.Piece (Elt F) S1x1024 .f32)) (L11 : List (View.Piece (Elt F) S1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.KernelIdeal.Frm

end
-- ==== Proof.KI.R0RunC.lean ====
/- Region 0's body in CASE C (the last step of the contraction axis, which is not the first): the whole-body run. Each accumulator
   receives its last product; then the gates are formed from the accumulators and the bias rows, the new cell state
   f·c + i·tanh(candidate) is stored into output 11 and the new hidden state o·tanh(new cell) into output 10. -/
import proofs.«140296_j21131239097236_1_alg».proof.Proof.KI.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE C (last contraction step, not the first: t % 8 = 7): the accumulators enter at the contents the point before left
    (`xs·`); the two outputs' buffers enter at anything and leave with their pieces written. -/
noncomputable def kernelRun0_C (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (L10 : List (View.Piece (Elt F) S1x1024 .f32)) (L11 : List (View.Piece (Elt F) S1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    iexists _; iexact HS3

end Cert.KernelIdeal.Frm

end
-- ==== Proof.KI.R0Data.lean ====
/- Region 0 of @main at the entry contents `V`, the rest of its half: what each case of the body leaves in the two outputs'
   buffers and in the four accumulators (its pieces read back, with the covers), the same point by point (`outsAt0`: the
   accumulation along the contraction axis, restarted at each first step), the region invariant naming the accumulators'
   contents between points, the proof data, the body obligation at a generic point by the three cases, and the invariant at
   the region's two ends. -/
import proofs.«140296_j21131239097236_1_alg».proof.Proof.KI.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into output 10 (the window is idle at its points and not written back there): no pieces — a
    placeholder that nothing consults. -/
def out0_A_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

/-- Case A stores nothing into output 11 (the window is idle at its points and not written back there): no pieces — a
    placeholder that nothing consults. -/
def out0_A_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

/-- Case A's pieces for accumulator 0, which the kernel carries between points, cover it. -/
theorem scover0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1 S1x1024.size (by sl_kernel_rfl) y

/-- What case A leaves in accumulator 0: its pieces read back over junk. -/
def sout0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

/-- Case A's pieces for accumulator 1, which the kernel carries between points, cover it. -/
theorem scover0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1 S1x1024.size (by sl_kernel_rfl) y

/-- What case A leaves in accumulator 1: its pieces read back over junk. -/
def sout0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

/-- Case A's pieces for accumulator 2, which the kernel carries between points, cover it. -/
theorem scover0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1 S1x1024.size (by sl_kernel_rfl) y

/-- What case A leaves in accumulator 2: its pieces read back over junk. -/
def sout0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1)

/-- Case A's pieces for accumulator 3, which the kernel carries between points, cover it. -/
theorem scover0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1 S1x1024.size (by sl_kernel_rfl) y

/-- What case A leaves in accumulator 3: its pieces read back over junk. -/
def sout0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1)

/-- Case B stores nothing into output 10 (the window is idle at its points and not written back there): no pieces — a
    placeholder that nothing consults. -/
def out0_B_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

/-- Case B stores nothing into output 11 (the window is idle at its points and not written back there): no pieces — a
    placeholder that nothing consults. -/
def out0_B_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

/-- Case B's pieces for accumulator 0, which the kernel carries between points, cover it. -/
theorem scover0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case B leaves in accumulator 0: its pieces read back over junk. -/
def sout0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

/-- Case B's pieces for accumulator 1, which the kernel carries between points, cover it. -/
theorem scover0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case B leaves in accumulator 1: its pieces read back over junk. -/
def sout0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

/-- Case B's pieces for accumulator 2, which the kernel carries between points, cover it. -/
theorem scover0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1 S1x1024.size (by sl_kernel_rfl) y

/-- What case B leaves in accumulator 2: its pieces read back over junk. -/
def sout0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1)

/-- Case B's pieces for accumulator 3, which the kernel carries between points, cover it. -/
theorem scover0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1 S1x1024.size (by sl_kernel_rfl) y

/-- What case B leaves in accumulator 3: its pieces read back over junk. -/
def sout0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1)

/-- Case C's pieces for output 10 tile its block (one store of the whole block), so they cover it. -/
theorem cover0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1 S1x1024.size (by sl_kernel_rfl) y

/-- What case C leaves in output 10's staging buffer: its pieces read back over junk. -/
def out0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

/-- Case C's pieces for output 11 tile its block (one store of the whole block), so they cover it. -/
theorem cover0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1 S1x1024.size (by sl_kernel_rfl) y

/-- What case C leaves in output 11's staging buffer: its pieces read back over junk. -/
def out0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

/-- Case C's pieces for accumulator 0, which the kernel carries between points, cover it. -/
theorem scover0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case C leaves in accumulator 0: its pieces read back over junk. -/
def sout0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

/-- Case C's pieces for accumulator 1, which the kernel carries between points, cover it. -/
theorem scover0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case C leaves in accumulator 1: its pieces read back over junk. -/
def sout0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

/-- Case C's pieces for accumulator 2, which the kernel carries between points, cover it. -/
theorem scover0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1 S1x1024.size (by sl_kernel_rfl) y

/-- What case C leaves in accumulator 2: its pieces read back over junk. -/
def sout0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1)

/-- Case C's pieces for accumulator 3, which the kernel carries between points, cover it. -/
theorem scover0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1 S1x1024.size (by sl_kernel_rfl) y

/-- What case C leaves in accumulator 3: its pieces read back over junk. -/
def sout0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1)

/-! ## What the outputs and the accumulators hold after each point -/

/-- THE ACCUMULATION. What the two outputs' staging buffers and the four accumulators hold after the body at position `n`
    (a tuple: output 10 — the new hidden state —, output 11 — the new cell state —, then the accumulators of the forget,
    input, output and candidate gates): the case the closed forms select at `n`, run at the point's memrefs and input
    blocks, the accumulators entering at what this leaves at `n - 1`. The two conditions never hold together. -/
def outsAt0 (c : Dev nD) : (n : ℕ) → n < cfg0.N → Vec F S1x1024 .f32 × Vec F S1x1024 .f32 × Vec F S1x1024 .f32 × Vec F S1x1024 .f32 × Vec F S1x1024 .f32 × Vec F S1x1024 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
          out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
          sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
          sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 8 = 0 then
      if h1 : (n + 1) % 8 = 7 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
          out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
          sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
          sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 8 = 7 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
          sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 8 = 0) (h1 : ¬t.val % 8 = 7) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
          out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
          sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
          sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
          sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
          sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
          sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant with the accumulators carried between points -/

/-- The region invariant before position `n`: before the first point the class's (every scoped buffer that is no staging buffer at
    anything, the generator register at some state); afterwards the four accumulators at what the point before left in them
    (`outsAt0`'s last four components), the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ rest0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2) ∗ rest0 (F := F) c) ∗ (∃ r, prngReg c r)) := by
  cases n with
  | zero => exact absurd rfl hz
  | succ n => rfl

/-! ## The pipeline's proof data -/

/-- The proof data of region 0's pipeline on core `c`: the arrays as the region finds them (`V`); after the body at point `t` each
    input's buffer at its block and the two outputs' at `outsAt0`'s first two components; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 16000000 in
/-- The body at any point: the inputs' memrefs hold their blocks; the closed forms say which case the point is in; so that case's run
    applies. The invariant hands the body the accumulators at what the point before left (at anything at the very first
    point) with the other scoped buffers and the generator register, and takes the accumulators back at this point's
    contents (by the covers); an output the case does not store is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, H11, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11

  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10_C t (fun h => h0 ((hcond0_0 t).mp h)) ((hcond0_1 t).mpr h1)], after0_10]
      rw [show (dat0 V c).leavesExact 11 t = owns (c : Thread nD τ) (ms0_11 t) fullShare ((dat0 V c).after 11 t) from by
        unfold Dat.leavesExact; rw [liveAt0_11_C t (fun h => h0 ((hcond0_0 t).mp h)) ((hcond0_1 t).mpr h1)], after0_11]
      rw [outsAt0_C V c t h0 h1]
      unfold out0_C_10 out0_C_11 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%e11, H11⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)

    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Frm

end
-- ==== Proof.KI.R1Runs.lean ====
/- Region 1 of @main (the output projection, grid 10 × 4, point t = ni·4 + k) at the contents V the region is
   entered with: what its three case runs share — each window's block at a point, the two conditions of the body
   in closed form over the grid, where the output window is idle, the staging and scratch memrefs, and the region
   invariant with the accumulator named. -/
import proofs.«140296_j21131239097236_1_alg».proof.Proof.Gen.KernelIdeal.Launch
import proofs.«140296_j21131239097236_1_alg».proof.Proof.Gen.KernelIdeal.Skeleton
import proofs.«140296_j21131239097236_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body (k = 0: the accumulator is reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition of the body (k = 3: the bias is added and the block stored), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (k = 0) the output window 3 is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the points of case B (0 < k < 3) the output window 3 is idle and not written back. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C (k = 3) the output window 3 is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1x3200 .f32 := (Memref.whole cc1_stg3_0 : Memref sig .tc .vmem S1x3200 .f32).view
/-- Each window's current staging memref at point `t`, and its wholeness. -/
abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3200 .f32 := win1_3.stage (cfg1.slots t 3)
abbrev hs1_3 (t : Fin cfg1.N) : (ms1_3 t).IsWhole := hstage1_3 ((cfg1.slots t 3).cast nbuf1_3)
/-- The scratch operand: the accumulator, a whole scoped buffer of the kernel's own. -/
abbrev scM1_0 : Memref sig .tc .vmem S1x3200 .f32 := Memref.whole cc1_scratch0
/-- The accumulator as a view: what it holds between points is stated through it. -/
abbrev VS1_0 : View sig .tc .vmem S1x3200 .f32 := scM1_0.view

/-- The region invariant with the accumulator as a memref owned at some contents, every other scoped buffer
    unopened, and the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

end Cert.KernelIdeal.Frm

end
-- ==== Proof.KI.R1RunA.lean ====
/- Region 1's body in case A (k = 0: the accumulator is reset, then the product of the two blocks is added; nothing is stored into the output). -/
import proofs.«140296_j21131239097236_1_alg».proof.Proof.KI.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs in case A: the pieces its stores leave in the output's buffer and in the
    accumulator (last first), with the run from the buffers' contents before to the buffers with those pieces
    written. -/
noncomputable def kernelRun1_A (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R1RunB.lean ====
/- Region 1's body in case B (0 < k < 3: the product of the two blocks is added to the accumulator; nothing is stored into the output). -/
import proofs.«140296_j21131239097236_1_alg».proof.Proof.KI.R1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs in case B: the pieces its stores leave in the output's buffer and in the
    accumulator (last first), with the run from the buffers' contents before to the buffers with those pieces
    written. -/
noncomputable def kernelRun1_B (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R1RunC.lean ====
/- Region 1's body in case C (k = 3: the product of the two blocks is added to the accumulator, and the accumulator plus the bias block is stored into the output). -/
import proofs.«140296_j21131239097236_1_alg».proof.Proof.KI.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs in case C: the pieces its stores leave in the output's buffer and in the
    accumulator (last first), with the run from the buffers' contents before to the buffers with those pieces
    written. -/
noncomputable def kernelRun1_C (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨?_, ?_, fun E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.KI.R1Data.lean ====
/- Region 1 of @main at the entry contents V, its last module: what the output window's buffer and the accumulator
   hold per case (as the pieces the case's run found, read back) and point by point (outsAt1), the proof data of
   the region's pipeline (dat1), the body obligation at every point, and the region invariant's two ends. -/
import proofs.«140296_j21131239097236_1_alg».proof.Proof.KI.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output window 3 (idle at its points and not written back there): no pieces, a
    placeholder nothing consults. -/
def out1_A_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) : Vec F S1x3200 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator tile it, so they cover it. -/
theorem scover1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) (y : S1x3200.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x3200.size (by sl_kernel_rfl) y

/-- What case A leaves in the accumulator: its pieces read back over junk. -/
def sout1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) : Vec F S1x3200 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output window 3 (idle at its points and not written back there): no pieces, a
    placeholder nothing consults. -/
def out1_B_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) : Vec F S1x3200 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator tile it, so they cover it. -/
theorem scover1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) (y : S1x3200.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x3200.size (by sl_kernel_rfl) y

/-- What case B leaves in the accumulator: its pieces read back over junk. -/
def sout1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output window 3 tile its block, so they cover it. -/
theorem cover1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x3200.size (by sl_kernel_rfl) y

/-- What case C leaves in output window 3's staging buffer: its pieces read back over junk. -/
def out1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator tile it, so they cover it. -/
theorem scover1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x3200.size (by sl_kernel_rfl) y

/-- What case C leaves in the accumulator: its pieces read back over junk. -/
def sout1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- What output window 3's staging buffer and the accumulator hold after the body at position `n` (a pair: the
    output's buffer, then the accumulator): the case the closed forms select at `n`, run at the point's memrefs and
    input blocks, the accumulator at what the point before left. -/
def outsAt1 (c : Dev nD) : (n : ℕ) → n < cfg1.N → Vec F S1x3200 .f32 × Vec F S1x3200 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant between points -/

/-- The region invariant before position `n`: before the first point the launch's (every scoped buffer at anything);
    afterwards the accumulator at what the point before left in it, every other scoped buffer unopened, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 40 := lt_of_lt_of_eq t.isLt (show cfg1.N = 40 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation of region 1's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Cert.KernelIdeal.Frm

end
-- ==== Proof.KI.Run.lean ====
/- The whole run of the program, every unscoped buffer named at the end.

   The program is five items: host lines, the gates kernel's region, a host line, the projection
   kernel's region, host lines. The buffers' contents at each boundary are a fold from the launch
   memory: a host stretch applies its operations; a region leaves its input arrays as entered and each
   output array at what its write-backs, in point order, leave. Each region is entered from "every
   unscoped buffer at the boundary's contents, the generator register at some state, nothing owed", its
   arrays split out of the unscoped buffers at entry and joined back at exit; its carried scratch lives
   in the region's invariant, which starts and ends as the scoped rest at anything. -/
import proofs.«140296_j21131239097236_1_alg».proof.Proof.Gen.KernelIdeal.Launch
import proofs.«140296_j21131239097236_1_alg».proof.Proof.Gen.KernelIdeal.Skeleton
import proofs.«140296_j21131239097236_1_alg».proof.Proof.Gen.KernelIdeal.Points
import proofs.«140296_j21131239097236_1_alg».proof.Proof.Gen.KernelIdeal.Regions
import proofs.«140296_j21131239097236_1_alg».proof.Proof.KI.R0Data
import proofs.«140296_j21131239097236_1_alg».proof.Proof.KI.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host lines (the gates region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the gates region's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host line between the regions (the projection region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the projection region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host lines: what the program returns from. -/
abbrev W5 : Dev nD → Valuation τ sig (Elt F) := fun c => StableHlo.after hostOps2 (W4 m c)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-- The class invariant is the scoped rest beside the generator register at some state. -/
theorem PhiA_intro0 (c : Dev nD) : iprop(Pipeline.scopedRest (Ix := Unit) (Name := ℕ) (U := UR sig nD τ) (Lvl := ℕ) (Val := Elt F) spec0 c ∗ ∃ r, prngReg c r) ⊢ (Pipeline.ΦA spec0 c : sProp 𝕄) := by
  unfold Pipeline.ΦA; exact .rfl
theorem PhiA_elim0 (c : Dev nD) : (Pipeline.ΦA spec0 c : sProp 𝕄) ⊢ iprop(Pipeline.scopedRest (Ix := Unit) (Name := ℕ) (U := UR sig nD τ) (Lvl := ℕ) (Val := Elt F) spec0 c ∗ ∃ r, prngReg c r) := by
  unfold Pipeline.ΦA; exact .rfl
theorem PhiA_intro1 (c : Dev nD) : iprop(Pipeline.scopedRest (Ix := Unit) (Name := ℕ) (U := UR sig nD τ) (Lvl := ℕ) (Val := Elt F) spec1 c ∗ ∃ r, prngReg c r) ⊢ (Pipeline.ΦA spec1 c : sProp 𝕄) := by
  unfold Pipeline.ΦA; exact .rfl
theorem PhiA_elim1 (c : Dev nD) : (Pipeline.ΦA spec1 c : sProp 𝕄) ⊢ iprop(Pipeline.scopedRest (Ix := Unit) (Name := ℕ) (U := UR sig nD τ) (Lvl := ℕ) (Val := Elt F) spec1 c ∗ ∃ r, prngReg c r) := by
  unfold Pipeline.ΦA; exact .rfl

/-! ## The regions as segments -/

set_option backward.isDefEq.respectTransparency.types false in
/-- The gates region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    iapply (PhiA_intro0 c)
    isplitl [Hr]; · iexact Hr
    iexact Hp
  hout c := by
    rw [Pipeline.ownSems0_none, show (pdats m 0 c).Φ (Fin.last _) = (dat0 (V1 m) c).Φ (Fin.last cfg0.N) from rfl]
    have h1 := hout0 (V1 m) c
    have h2 := PhiA_elim0 (F := F) c
    iintro H
    ihave H1 := h1 $$ H
    ihave H2 := h2 $$ H1
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    iapply (PhiA_intro1 c)
    isplitl [Hr]; · iexact Hr
    iexact Hp
  hout c := by
    rw [Pipeline.ownSems0_none, show (pdats m 1 c).Φ (Fin.last _) = (dat1 (V3 m) c).Φ (Fin.last cfg1.N) from rfl]
    have h1 := hout1 (V3 m) c
    have h2 := PhiA_elim1 (F := F) c
    iintro H
    ihave H1 := h1 $$ H
    ihave H2 := h2 $$ H1
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of its segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing
    faulting, and the final memory holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Frm

end
-- ==== Proof.KI.Args.lean ====
/- Every argument array ends as launched.

   No host line writes an argument and no region may change one: a region either reads it through an
   input window (whose array the write-backs never touch) or bypasses it. So the fold of the buffers'
   contents, read at an argument, walks back to the launch memory. -/
import proofs.«140296_j21131239097236_1_alg».proof.Proof.Gen.KernelIdeal.Launch
import proofs.«140296_j21131239097236_1_alg».proof.Proof.Gen.KernelIdeal.Skeleton
import proofs.«140296_j21131239097236_1_alg».proof.Proof.Gen.KernelIdeal.Points
import proofs.«140296_j21131239097236_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step back through each item, at a buffer the item does not write -/

theorem W1_eq_W0 (c : Dev nD) (b : Ref sig .tc) (h : b ∉ hostOps0_W) : W1 m c b = W0 m c b :=
  StableHlo.after_of_writes_sub hostOps0 _ hostOps0_writes h
theorem W3_eq_W2 (c : Dev nD) (b : Ref sig .tc) (h : b ∉ hostOps1_W) : W3 m c b = W2 m c b :=
  StableHlo.after_of_writes_sub hostOps1 _ hostOps1_writes h
theorem W5_eq_W4 (c : Dev nD) (b : Ref sig .tc) (h : b ∉ hostOps2_W) : W5 m c b = W4 m c b :=
  StableHlo.after_of_writes_sub hostOps2 _ hostOps2_writes h
/-- An input window's array leaves the gates region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input window's array leaves the projection region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The arguments -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_eq_W4 m c main_arg0 (by decide)
    _ = W3 m c (Proc.devRef .tc main_arg0) := (W4_of_ne m c main_arg0 (by decide))
    _ = W2 m c (Proc.devRef .tc main_arg0) := W3_eq_W2 m c main_arg0 (by decide)
    _ = W1 m c (Proc.devRef .tc main_arg0) := (W2_of_ne m c main_arg0 (by decide))
    _ = W0 m c (Proc.devRef .tc main_arg0) := W1_eq_W0 m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_eq_W4 m c main_arg1 (by decide)
    _ = W3 m c (Proc.devRef .tc main_arg1) := (W4_of_ne m c main_arg1 (by decide))
    _ = W2 m c (Proc.devRef .tc main_arg1) := W3_eq_W2 m c main_arg1 (by decide)
    _ = W1 m c (Proc.devRef .tc main_arg1) := (W2_of_ne m c main_arg1 (by decide))
    _ = W0 m c (Proc.devRef .tc main_arg1) := W1_eq_W0 m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_eq_W4 m c main_arg2 (by decide)
    _ = W3 m c (Proc.devRef .tc main_arg2) := (W4_of_ne m c main_arg2 (by decide))
    _ = W2 m c (Proc.devRef .tc main_arg2) := W3_eq_W2 m c main_arg2 (by decide)
    _ = W1 m c (Proc.devRef .tc main_arg2) := (W2_in m c 9 rfl)
    _ = W0 m c (Proc.devRef .tc main_arg2) := W1_eq_W0 m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_eq_W4 m c main_arg3 (by decide)
    _ = W3 m c (Proc.devRef .tc main_arg3) := (W4_of_ne m c main_arg3 (by decide))
    _ = W2 m c (Proc.devRef .tc main_arg3) := W3_eq_W2 m c main_arg3 (by decide)
    _ = W1 m c (Proc.devRef .tc main_arg3) := (W2_in m c 1 rfl)
    _ = W0 m c (Proc.devRef .tc main_arg3) := W1_eq_W0 m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_eq_W4 m c main_arg4 (by decide)
    _ = W3 m c (Proc.devRef .tc main_arg4) := (W4_of_ne m c main_arg4 (by decide))
    _ = W2 m c (Proc.devRef .tc main_arg4) := W3_eq_W2 m c main_arg4 (by decide)
    _ = W1 m c (Proc.devRef .tc main_arg4) := (W2_of_ne m c main_arg4 (by decide))
    _ = W0 m c (Proc.devRef .tc main_arg4) := W1_eq_W0 m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_eq_W4 m c main_arg5 (by decide)
    _ = W3 m c (Proc.devRef .tc main_arg5) := (W4_of_ne m c main_arg5 (by decide))
    _ = W2 m c (Proc.devRef .tc main_arg5) := W3_eq_W2 m c main_arg5 (by decide)
    _ = W1 m c (Proc.devRef .tc main_arg5) := (W2_in m c 2 rfl)
    _ = W0 m c (Proc.devRef .tc main_arg5) := W1_eq_W0 m c main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_eq_W4 m c main_arg6 (by decide)
    _ = W3 m c (Proc.devRef .tc main_arg6) := (W4_of_ne m c main_arg6 (by decide))
    _ = W2 m c (Proc.devRef .tc main_arg6) := W3_eq_W2 m c main_arg6 (by decide)
    _ = W1 m c (Proc.devRef .tc main_arg6) := (W2_of_ne m c main_arg6 (by decide))
    _ = W0 m c (Proc.devRef .tc main_arg6) := W1_eq_W0 m c main_arg6 (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_eq_W4 m c main_arg7 (by decide)
    _ = W3 m c (Proc.devRef .tc main_arg7) := (W4_of_ne m c main_arg7 (by decide))
    _ = W2 m c (Proc.devRef .tc main_arg7) := W3_eq_W2 m c main_arg7 (by decide)
    _ = W1 m c (Proc.devRef .tc main_arg7) := (W2_in m c 3 rfl)
    _ = W0 m c (Proc.devRef .tc main_arg7) := W1_eq_W0 m c main_arg7 (by decide)
    _ = m ((c : Thread nD τ).loc main_arg7) := rfl

theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_eq_W4 m c main_arg8 (by decide)
    _ = W3 m c (Proc.devRef .tc main_arg8) := (W4_of_ne m c main_arg8 (by decide))
    _ = W2 m c (Proc.devRef .tc main_arg8) := W3_eq_W2 m c main_arg8 (by decide)
    _ = W1 m c (Proc.devRef .tc main_arg8) := (W2_of_ne m c main_arg8 (by decide))
    _ = W0 m c (Proc.devRef .tc main_arg8) := W1_eq_W0 m c main_arg8 (by decide)
    _ = m ((c : Thread nD τ).loc main_arg8) := rfl

theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_eq_W4 m c main_arg9 (by decide)
    _ = W3 m c (Proc.devRef .tc main_arg9) := (W4_of_ne m c main_arg9 (by decide))
    _ = W2 m c (Proc.devRef .tc main_arg9) := W3_eq_W2 m c main_arg9 (by decide)
    _ = W1 m c (Proc.devRef .tc main_arg9) := (W2_in m c 4 rfl)
    _ = W0 m c (Proc.devRef .tc main_arg9) := W1_eq_W0 m c main_arg9 (by decide)
    _ = m ((c : Thread nD τ).loc main_arg9) := rfl

theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_eq_W4 m c main_arg10 (by decide)
    _ = W3 m c (Proc.devRef .tc main_arg10) := (W4_of_ne m c main_arg10 (by decide))
    _ = W2 m c (Proc.devRef .tc main_arg10) := W3_eq_W2 m c main_arg10 (by decide)
    _ = W1 m c (Proc.devRef .tc main_arg10) := (W2_of_ne m c main_arg10 (by decide))
    _ = W0 m c (Proc.devRef .tc main_arg10) := W1_eq_W0 m c main_arg10 (by decide)
    _ = m ((c : Thread nD τ).loc main_arg10) := rfl

theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_eq_W4 m c main_arg11 (by decide)
    _ = W3 m c (Proc.devRef .tc main_arg11) := (W4_in m c 1 rfl)
    _ = W2 m c (Proc.devRef .tc main_arg11) := W3_eq_W2 m c main_arg11 (by decide)
    _ = W1 m c (Proc.devRef .tc main_arg11) := (W2_of_ne m c main_arg11 (by decide))
    _ = W0 m c (Proc.devRef .tc main_arg11) := W1_eq_W0 m c main_arg11 (by decide)
    _ = m ((c : Thread nD τ).loc main_arg11) := rfl

theorem W5_main_arg12 (c : Dev nD) : W5 m c (Proc.devRef .tc main_arg12) = m ((c : Thread nD τ).loc main_arg12) :=
  calc W5 m c (Proc.devRef .tc main_arg12)
    _ = W4 m c (Proc.devRef .tc main_arg12) := W5_eq_W4 m c main_arg12 (by decide)
    _ = W3 m c (Proc.devRef .tc main_arg12) := (W4_of_ne m c main_arg12 (by decide))
    _ = W2 m c (Proc.devRef .tc main_arg12) := W3_eq_W2 m c main_arg12 (by decide)
    _ = W1 m c (Proc.devRef .tc main_arg12) := (W2_of_ne m c main_arg12 (by decide))
    _ = W0 m c (Proc.devRef .tc main_arg12) := W1_eq_W0 m c main_arg12 (by decide)
    _ = m ((c : Thread nD τ).loc main_arg12) := rfl

/-! ## The results, and what the second region reads -/

/-- The new cell row is what the gates region's write-backs leave in its second output array. -/
theorem W5_main_v5_1 (c : Dev nD) : W5 m c (Proc.devRef .tc main_v5_1) = (dat0 (V1 m) c).arrAt 11 cfg0.N :=
  calc W5 m c (Proc.devRef .tc main_v5_1)
    _ = W4 m c (Proc.devRef .tc main_v5_1) := W5_eq_W4 m c main_v5_1 (by decide)
    _ = W3 m c (Proc.devRef .tc main_v5_1) := W4_of_ne m c main_v5_1 (by decide)
    _ = W2 m c (Proc.devRef .tc main_v5_1) := W3_eq_W2 m c main_v5_1 (by decide)
    _ = (dat0 (V1 m) c).arrAt 11 cfg0.N := W2_arr m c 11
/-- The projection region finds the new hidden row as the gates region left it. -/
theorem W3_main_v5_0 (c : Dev nD) : W3 m c (Proc.devRef .tc main_v5_0) = (dat0 (V1 m) c).arrAt 10 cfg0.N :=
  (W3_eq_W2 m c main_v5_0 (by decide)).trans (W2_arr m c 10)
/-- The new hidden row is what the gates region's write-backs leave in its first output array. -/
theorem W5_main_v5_0 (c : Dev nD) : W5 m c (Proc.devRef .tc main_v5_0) = (dat0 (V1 m) c).arrAt 10 cfg0.N :=
  calc W5 m c (Proc.devRef .tc main_v5_0)
    _ = W4 m c (Proc.devRef .tc main_v5_0) := W5_eq_W4 m c main_v5_0 (by decide)
    _ = W3 m c (Proc.devRef .tc main_v5_0) := W4_in m c 0 rfl
    _ = (dat0 (V1 m) c).arrAt 10 cfg0.N := W3_main_v5_0 m c
/-- The logits row is what the projection region's write-backs leave in its output array. -/
theorem W4_main_v7 (c : Dev nD) : W4 m c (Proc.devRef .tc main_v7) = (dat1 (V3 m) c).arrAt 3 cfg1.N := W4_arr m c 3
/-- The projection region finds the output matrix as launched. -/
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_eq_W2 m c main_arg11 (by decide)
    _ = W1 m c (Proc.devRef .tc main_arg11) := W2_of_ne m c main_arg11 (by decide)
    _ = W0 m c (Proc.devRef .tc main_arg11) := W1_eq_W0 m c main_arg11 (by decide)
    _ = m ((c : Thread nD τ).loc main_arg11) := rfl
/-- The output bias column reaches the line that reshapes it as launched. -/
theorem W2_main_arg12 (c : Dev nD) : W2 m c (Proc.devRef .tc main_arg12) = m ((c : Thread nD τ).loc main_arg12) :=
  calc W2 m c (Proc.devRef .tc main_arg12)
    _ = W1 m c (Proc.devRef .tc main_arg12) := W2_of_ne m c main_arg12 (by decide)
    _ = W0 m c (Proc.devRef .tc main_arg12) := W1_eq_W0 m c main_arg12 (by decide)
    _ = m ((c : Thread nD τ).loc main_arg12) := rfl
/-- The gates region finds an argument it reads as launched. -/
theorem W1_main_arg (c : Dev nD) (b : Ref sig .tc) (h : b ∉ hostOps0_W) : W1 m c (Proc.devRef .tc b) = m ((c : Thread nD τ).loc b) :=
  W1_eq_W0 m c b h

/-! ## The frame -/

/-- From any memory with zero counters every weakly fair execution terminates, nothing faulting, and every
    argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c)⟩)
    (run_all m ρ)

end Cert.KernelIdeal.Frm

end
-- ==== Proof.Spec.lean ====
/- What the two programs compute, entry by entry, over the extended reals.

   One step of an LSTM cell on a single row, then a projection onto 32000 logits.
   With `cmb` the input row joined to the previous hidden row (8192 entries), each of the four
   gates takes, for hidden unit `j`, the weighted sum of `cmb` against row `j` of its weight matrix
   plus the unit's bias. The new cell value is  σ(f)·c + σ(i)·tanh(g),  the new hidden value is
   σ(o)·tanh(cell), and logit `n` is the weighted sum of the hidden row against row `n` of the
   output matrix plus its bias. σ is the logistic function 1/(1+e^(-x)) extended to ±∞.
   Everything is stated over arrays indexed by literal shapes; biases appear here as ROWS
   ([1, n]), the layout the kernel reads them in. -/
import Idealize.ShloMosaic.PureOps.Ideal
import Idealize.ShloMosaic.Lib.ValueIdx

noncomputable section

open scoped BigOperators

namespace Cert.Spec

open Idealize.ShloMosaic Idealize.ShloMosaic.ValueIdx

abbrev I1x8192 : Type := (⟨2, ![1, 8192]⟩ : Shape).Idx
abbrev I1x4096 : Type := (⟨2, ![1, 4096]⟩ : Shape).Idx
abbrev I4096x8192 : Type := (⟨2, ![4096, 8192]⟩ : Shape).Idx
abbrev I32000x4096 : Type := (⟨2, ![32000, 4096]⟩ : Shape).Idx
abbrev I1x32000 : Type := (⟨2, ![1, 32000]⟩ : Shape).Idx

/-- A gate's pre-activation at hidden unit `j`: ∑ₖ cmb[k]·W[j,k] + b[j]. -/
def pre (cmb : I1x8192 → EReal) (W : I4096x8192 → EReal) (b : I1x4096 → EReal) (j : Fin 4096) : EReal :=
  (∑ k : Fin 8192, cmb (ix2 (0 : Fin 1) k) * W (ix2 j k)) + b (ix2 (0 : Fin 1) j)

/-- The new cell value at unit `j`: σ(f)·c + σ(i)·tanh(g). -/
def cell (cmb : I1x8192 → EReal) (Wf Wi Wc : I4096x8192 → EReal) (bf bi bc c : I1x4096 → EReal) (j : Fin 4096) : EReal :=
  Ideal.logistic (pre cmb Wf bf j) * c (ix2 (0 : Fin 1) j) + Ideal.logistic (pre cmb Wi bi j) * Ideal.tanh (pre cmb Wc bc j)

/-- The new hidden value at unit `j`: σ(o)·tanh(cell). -/
def hidden (cmb : I1x8192 → EReal) (Wf Wi Wo Wc : I4096x8192 → EReal) (bf bi bo bc c : I1x4096 → EReal) (j : Fin 4096) : EReal :=
  Ideal.logistic (pre cmb Wo bo j) * Ideal.tanh (cell cmb Wf Wi Wc bf bi bc c j)

/-- Logit `n`: ∑ⱼ hid[j]·Wout[n,j] + bout[n]. -/
def logit (hid : I1x4096 → EReal) (Wout : I32000x4096 → EReal) (bout : I1x32000 → EReal) (n : Fin 32000) : EReal :=
  (∑ j : Fin 4096, hid (ix2 (0 : Fin 1) j) * Wout (ix2 n j)) + bout (ix2 (0 : Fin 1) n)

/-- The new cell row. -/
def cellRow (cmb : I1x8192 → EReal) (Wf Wi Wc : I4096x8192 → EReal) (bf bi bc c : I1x4096 → EReal) : I1x4096 → EReal :=
  fun i => cell cmb Wf Wi Wc bf bi bc c (i 1)

/-- The new hidden row. -/
def hiddenRow (cmb : I1x8192 → EReal) (Wf Wi Wo Wc : I4096x8192 → EReal) (bf bi bo bc c : I1x4096 → EReal) : I1x4096 → EReal :=
  fun i => hidden cmb Wf Wi Wo Wc bf bi bo bc c (i 1)

/-- The logits row. -/
def logitRow (hid : I1x4096 → EReal) (Wout : I32000x4096 → EReal) (bout : I1x32000 → EReal) : I1x32000 → EReal :=
  fun i => logit hid Wout bout (i 1)

theorem cellRow_apply (cmb : I1x8192 → EReal) (Wf Wi Wc : I4096x8192 → EReal) (bf bi bc c : I1x4096 → EReal) (j : Fin 4096) :
    cellRow cmb Wf Wi Wc bf bi bc c (ix2 (0 : Fin 1) j) = cell cmb Wf Wi Wc bf bi bc c j := rfl

theorem hiddenRow_apply (cmb : I1x8192 → EReal) (Wf Wi Wo Wc : I4096x8192 → EReal) (bf bi bo bc c : I1x4096 → EReal) (j : Fin 4096) :
    hiddenRow cmb Wf Wi Wo Wc bf bi bo bc c (ix2 (0 : Fin 1) j) = hidden cmb Wf Wi Wo Wc bf bi bo bc c j := rfl

theorem logitRow_apply (hid : I1x4096 → EReal) (Wout : I32000x4096 → EReal) (bout : I1x32000 → EReal) (n : Fin 32000) :
    logitRow hid Wout bout (ix2 (0 : Fin 1) n) = logit hid Wout bout n := rfl

end Cert.Spec

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.R0Pay.lean ====
/-
  The arithmetic of the gates kernel's stored values, read at one entry over the extended reals.

  The kernel keeps four running rows (forget, input, output and candidate gates). At the first step along
  the contraction axis each is set to zero; at every step each adds the product of the current 1024 entries
  of the joined input row with the current 1024 x 1024 block of its weight matrix (a row times the transpose
  of the block: entry q of the product is the sum over r of x[r] * w[q, r]); at the last step the biases are
  added, the logistic and tanh functions applied, and the new cell and hidden entries formed.
  Narrowing to bf16 and casting a shape to itself change nothing at the ideal values.
  Eight block sums of 1024 terms add up to the whole weighted sum over 8192 terms, so that the running row plus
  the bias after the eighth step is the gate's pre-activation.
-/
import proofs.«140296_j21131239097236_1_alg».proof.Proof.Gen.KernelIdeal.Skeleton
import proofs.«140296_j21131239097236_1_alg».proof.Proof.Spec
import proofs.«140296_j21131239097236_1_alg».proof.Proof.LibDotRows
import proofs.«140296_j21131239097236_1_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val.R0

open Cert.KernelIdeal Cert.KernelIdeal.Gen
open Idealize.ShloMosaic Idealize.ShloMosaic.ValueIdx

/-! ## The reset values -/

/-- The forget row's reset value is zero everywhere. -/
theorem pay4_apply (j : S1x1024.Idx) : (k0_pay4 (F := Ideal) j : EReal) = 0 :=
  (congrFun (shapeCast_self (broadcast S1x1024 (Scalar.ofBits (F := Ideal) .f32 0x00000000#32)) shapeCasts_S1x1024_S1x1024) j).trans
    Ideal.ofBits_zero_f32
/-- The input row's reset value is zero everywhere. -/
theorem pay5_apply (j : S1x1024.Idx) : (k0_pay5 (F := Ideal) j : EReal) = 0 :=
  (congrFun (shapeCast_self (broadcast S1x1024 (Scalar.ofBits (F := Ideal) .f32 0x00000000#32)) shapeCasts_S1x1024_S1x1024) j).trans
    Ideal.ofBits_zero_f32
/-- The output row's reset value is zero everywhere. -/
theorem pay6_apply (j : S1x1024.Idx) : (k0_pay6 (F := Ideal) j : EReal) = 0 :=
  (congrFun (shapeCast_self (broadcast S1x1024 (Scalar.ofBits (F := Ideal) .f32 0x00000000#32)) shapeCasts_S1x1024_S1x1024) j).trans
    Ideal.ofBits_zero_f32
/-- The candidate row's reset value is zero everywhere. -/
theorem pay7_apply (j : S1x1024.Idx) : (k0_pay7 (F := Ideal) j : EReal) = 0 :=
  (congrFun (shapeCast_self (broadcast S1x1024 (Scalar.ofBits (F := Ideal) .f32 0x00000000#32)) shapeCasts_S1x1024_S1x1024) j).trans
    Ideal.ofBits_zero_f32

/-! ## One accumulation step -/

/-- The kernel's product contracts axis 1 of both operands. -/
theorem rowsRows : Cert.Lib.DotRows.RowsRows (n := 1) (K := 1024) (c := 1024) dot_S1x1024_S1024x1024_S1x1024_1_1_0_0_n_n :=
  ⟨rfl, rfl, rfl, rfl, rfl, rfl⟩

/-- The narrowed input row is the input row. -/
theorem pay8_eq (x0 : Vec Ideal S1x1024 .f32) : k0_pay8 x0 = x0 := shapeCast_self _ _

/-- The product of the row with the block's transpose, at entry q. -/
theorem dot_apply (x : FVec Ideal S1x1024 .bf16) (w : Vec Ideal S1024x1024 .f32) (q : Fin 1024) :
    (matmul dot_S1x1024_S1024x1024_S1x1024_1_1_0_0_n_n none x (truncf .bf16 w bitsLt_bf16_f32)
        (constant S1x1024 .f32 0x00000000#32) (ix2 (0 : Fin 1) q) : EReal)
      = ∑ k : Fin 1024, (x (ix2 (0 : Fin 1) k) : EReal) * (w (ix2 q k) : EReal) :=
  rowsRows.matmul_zero_apply none x (truncf .bf16 w bitsLt_bf16_f32) (ix2 (0 : Fin 1) q)

/-- The forget row after a step: what it held plus the product's entry. -/
theorem pay9_apply (x0 : Vec Ideal S1x1024 .f32) (w : Vec Ideal S1024x1024 .f32) (acc : Vec Ideal S1x1024 .f32) (q : Fin 1024) :
    (k0_pay9 x0 w acc (ix2 (0 : Fin 1) q) : EReal)
      = (acc (ix2 (0 : Fin 1) q) : EReal) + ∑ k : Fin 1024, (x0 (ix2 (0 : Fin 1) k) : EReal) * (w (ix2 q k) : EReal) := by
  unfold k0_pay9
  refine (congrFun (shapeCast_self _ _) (ix2 (0 : Fin 1) q)).trans ?_
  refine congrArg (fun z : EReal => (acc (ix2 (0 : Fin 1) q) : EReal) + z) ?_
  refine (dot_apply (k0_pay8 x0) w q).trans ?_
  exact congrArg (fun x : Vec Ideal S1x1024 .f32 => ∑ k : Fin 1024, (x (ix2 (0 : Fin 1) k) : EReal) * (w (ix2 q k) : EReal)) (pay8_eq x0)

/-- The input row after a step. -/
theorem pay10_apply (x0 : Vec Ideal S1x1024 .f32) (w : Vec Ideal S1024x1024 .f32) (acc : Vec Ideal S1x1024 .f32) (q : Fin 1024) :
    (k0_pay10 x0 w acc (ix2 (0 : Fin 1) q) : EReal)
      = (acc (ix2 (0 : Fin 1) q) : EReal) + ∑ k : Fin 1024, (x0 (ix2 (0 : Fin 1) k) : EReal) * (w (ix2 q k) : EReal) := by
  unfold k0_pay10
  refine (congrFun (shapeCast_self _ _) (ix2 (0 : Fin 1) q)).trans ?_
  refine congrArg (fun z : EReal => (acc (ix2 (0 : Fin 1) q) : EReal) + z) ?_
  refine (dot_apply (k0_pay8 x0) w q).trans ?_
  exact congrArg (fun x : Vec Ideal S1x1024 .f32 => ∑ k : Fin 1024, (x (ix2 (0 : Fin 1) k) : EReal) * (w (ix2 q k) : EReal)) (pay8_eq x0)

/-- The output row after a step. -/
theorem pay11_apply (x0 : Vec Ideal S1x1024 .f32) (w : Vec Ideal S1024x1024 .f32) (acc : Vec Ideal S1x1024 .f32) (q : Fin 1024) :
    (k0_pay11 x0 w acc (ix2 (0 : Fin 1) q) : EReal)
      = (acc (ix2 (0 : Fin 1) q) : EReal) + ∑ k : Fin 1024, (x0 (ix2 (0 : Fin 1) k) : EReal) * (w (ix2 q k) : EReal) := by
  unfold k0_pay11
  refine (congrFun (shapeCast_self _ _) (ix2 (0 : Fin 1) q)).trans ?_
  refine congrArg (fun z : EReal => (acc (ix2 (0 : Fin 1) q) : EReal) + z) ?_
  refine (dot_apply (k0_pay8 x0) w q).trans ?_
  exact congrArg (fun x : Vec Ideal S1x1024 .f32 => ∑ k : Fin 1024, (x (ix2 (0 : Fin 1) k) : EReal) * (w (ix2 q k) : EReal)) (pay8_eq x0)

/-- The candidate row after a step (its product takes the narrowed row as an argument). -/
theorem pay1_apply (x0 : Vec Ideal S1x1024 .f32) (w : Vec Ideal S1024x1024 .f32) (acc : Vec Ideal S1x1024 .f32) (q : Fin 1024) :
    (k0_pay1 (k0_pay8 x0) w acc (ix2 (0 : Fin 1) q) : EReal)
      = (acc (ix2 (0 : Fin 1) q) : EReal) + ∑ k : Fin 1024, (x0 (ix2 (0 : Fin 1) k) : EReal) * (w (ix2 q k) : EReal) := by
  unfold k0_pay1
  refine (congrFun (shapeCast_self _ _) (ix2 (0 : Fin 1) q)).trans ?_
  refine congrArg (fun z : EReal => (acc (ix2 (0 : Fin 1) q) : EReal) + z) ?_
  refine (dot_apply (k0_pay8 x0) w q).trans ?_
  exact congrArg (fun x : Vec Ideal S1x1024 .f32 => ∑ k : Fin 1024, (x (ix2 (0 : Fin 1) k) : EReal) * (w (ix2 q k) : EReal)) (pay8_eq x0)

/-! ## The last step's values -/

/-- The new cell entry: σ(f + b_f)·c + σ(i + b_i)·tanh(g + b_c) of the rows' entries. -/
theorem pay2_apply (fa bf ia bi ca bc c : Vec Ideal S1x1024 .f32) (j : S1x1024.Idx) :
    (k0_pay2 fa bf ia bi ca bc c j : EReal)
      = Ideal.logistic ((fa j : EReal) + (bf j : EReal)) * (c j : EReal)
        + Ideal.logistic ((ia j : EReal) + (bi j : EReal)) * Ideal.tanh ((ca j : EReal) + (bc j : EReal)) := by
  unfold k0_pay2
  simp only [shapeCast_self]
  rfl

/-- The new hidden entry: σ(o + b_o)·tanh(new cell entry). -/
theorem pay3_apply (fa bf ia bi oa bo ca bc c : Vec Ideal S1x1024 .f32) (j : S1x1024.Idx) :
    (k0_pay3 fa bf ia bi oa bo ca bc c j : EReal)
      = Ideal.logistic ((oa j : EReal) + (bo j : EReal)) * Ideal.tanh (k0_pay2 fa bf ia bi ca bc c j : EReal) := by
  unfold k0_pay3
  simp only [shapeCast_self]
  rfl

/-! ## Eight block sums make the whole weighted sum -/

/-- Block k of hidden unit j's weighted sum: the terms 1024·k … 1024·k + 1023. -/
def blockDot (cmb : Spec.I1x8192 → EReal) (W : Spec.I4096x8192 → EReal) (j : Fin 4096) (k : Fin 8) : EReal :=
  ∑ r : Fin 1024, cmb (ix2 (0 : Fin 1) (⟨1024 * k.val + r.val, by have := k.isLt; have := r.isLt; omega⟩ : Fin 8192))
    * W (ix2 j (⟨1024 * k.val + r.val, by have := k.isLt; have := r.isLt; omega⟩ : Fin 8192))

/-- The eight blocks add up to the whole sum. -/
theorem sum_blockDot (cmb : Spec.I1x8192 → EReal) (W : Spec.I4096x8192 → EReal) (j : Fin 4096) :
    ∑ k : Fin 8, blockDot cmb W j k = ∑ n : Fin 8192, cmb (ix2 (0 : Fin 1) n) * W (ix2 j n) :=
  (Cert.SumLib.sum_8x1024 (fun n : Fin 8192 => cmb (ix2 (0 : Fin 1) n) * W (ix2 j n))).symm

/-- The sum of the first n blocks. -/
def partDot (cmb : Spec.I1x8192 → EReal) (W : Spec.I4096x8192 → EReal) (j : Fin 4096) (n : ℕ) : EReal :=
  ∑ k ∈ Finset.range n, if h : k < 8 then blockDot cmb W j ⟨k, h⟩ else 0

theorem partDot_zero (cmb : Spec.I1x8192 → EReal) (W : Spec.I4096x8192 → EReal) (j : Fin 4096) : partDot cmb W j 0 = 0 :=
  Finset.sum_range_zero _

theorem partDot_succ (cmb : Spec.I1x8192 → EReal) (W : Spec.I4096x8192 → EReal) (j : Fin 4096) (n : ℕ) (h : n < 8) :
    partDot cmb W j (n + 1) = partDot cmb W j n + blockDot cmb W j ⟨n, h⟩ := by
  unfold partDot
  rw [Finset.sum_range_succ, dif_pos h]

/-- All eight blocks: the whole weighted sum. -/
theorem partDot_eight (cmb : Spec.I1x8192 → EReal) (W : Spec.I4096x8192 → EReal) (j : Fin 4096) :
    partDot cmb W j 8 = ∑ n : Fin 8192, cmb (ix2 (0 : Fin 1) n) * W (ix2 j n) := by
  unfold partDot
  rw [Finset.sum_range (fun k => if h : k < 8 then blockDot cmb W j ⟨k, h⟩ else 0), ← sum_blockDot]
  exact Finset.sum_congr rfl fun k _ => dif_pos k.isLt

/-- With the bias: the gate's pre-activation. -/
theorem partDot_add_bias (cmb : Spec.I1x8192 → EReal) (W : Spec.I4096x8192 → EReal) (b : Spec.I1x4096 → EReal) (j : Fin 4096) :
    partDot cmb W j 8 + b (ix2 (0 : Fin 1) j) = Spec.pre cmb W b j := by
  rw [partDot_eight]
  rfl

/-- A step's product entry is block k of the weighted sum, when the row block holds entries 1024·k … of the joined row
    and row q of the weight block holds entries 1024·k … of row j of the weight matrix. -/
theorem dot_eq_blockDot (cmb : Spec.I1x8192 → EReal) (W : Spec.I4096x8192 → EReal) (x0 : Vec Ideal S1x1024 .f32)
    (w : Vec Ideal S1024x1024 .f32) (j : Fin 4096) (k : Fin 8) (q : Fin 1024)
    (hx : ∀ r : Fin 1024, (x0 (ix2 (0 : Fin 1) r) : EReal)
      = cmb (ix2 (0 : Fin 1) (⟨1024 * k.val + r.val, by have := k.isLt; have := r.isLt; omega⟩ : Fin 8192)))
    (hw : ∀ r : Fin 1024, (w (ix2 q r) : EReal)
      = W (ix2 j (⟨1024 * k.val + r.val, by have := k.isLt; have := r.isLt; omega⟩ : Fin 8192))) :
    ∑ r : Fin 1024, (x0 (ix2 (0 : Fin 1) r) : EReal) * (w (ix2 q r) : EReal) = blockDot cmb W j k :=
  Finset.sum_congr rfl fun r _ => by rw [hx r, hw r]

/-- A running row that holds the first k blocks holds the first k + 1 after step k. -/
theorem acc_step (cmb : Spec.I1x8192 → EReal) (W : Spec.I4096x8192 → EReal) (x0 : Vec Ideal S1x1024 .f32)
    (w : Vec Ideal S1024x1024 .f32) (j : Fin 4096) (k : Fin 8) (q : Fin 1024) (a : EReal)
    (ha : a = partDot cmb W j k.val)
    (hx : ∀ r : Fin 1024, (x0 (ix2 (0 : Fin 1) r) : EReal)
      = cmb (ix2 (0 : Fin 1) (⟨1024 * k.val + r.val, by have := k.isLt; have := r.isLt; omega⟩ : Fin 8192)))
    (hw : ∀ r : Fin 1024, (w (ix2 q r) : EReal)
      = W (ix2 j (⟨1024 * k.val + r.val, by have := k.isLt; have := r.isLt; omega⟩ : Fin 8192))) :
    a + ∑ r : Fin 1024, (x0 (ix2 (0 : Fin 1) r) : EReal) * (w (ix2 q r) : EReal) = partDot cmb W j (k.val + 1) := by
  rw [partDot_succ cmb W j k.val k.isLt, ha, dot_eq_blockDot cmb W x0 w j k q hx hw]

/-! ## The last step's values as the cell's and the hidden row's entries -/

/-- The stored cell entry is the new cell value of hidden unit j, when the running rows hold all eight blocks and the
    loaded bias and cell blocks hold unit j's entries. -/
theorem pay2_cell (cmb : Spec.I1x8192 → EReal) (Wf Wi Wc : Spec.I4096x8192 → EReal) (bf bi bc c : Spec.I1x4096 → EReal)
    (fa bfb ia bib ca bcb cb : Vec Ideal S1x1024 .f32) (j : Fin 4096) (q : Fin 1024)
    (hf : (fa (ix2 (0 : Fin 1) q) : EReal) = partDot cmb Wf j 8) (hi : (ia (ix2 (0 : Fin 1) q) : EReal) = partDot cmb Wi j 8)
    (hc : (ca (ix2 (0 : Fin 1) q) : EReal) = partDot cmb Wc j 8)
    (hbf : (bfb (ix2 (0 : Fin 1) q) : EReal) = bf (ix2 (0 : Fin 1) j)) (hbi : (bib (ix2 (0 : Fin 1) q) : EReal) = bi (ix2 (0 : Fin 1) j))
    (hbc : (bcb (ix2 (0 : Fin 1) q) : EReal) = bc (ix2 (0 : Fin 1) j)) (hcb : (cb (ix2 (0 : Fin 1) q) : EReal) = c (ix2 (0 : Fin 1) j)) :
    (k0_pay2 fa bfb ia bib ca bcb cb (ix2 (0 : Fin 1) q) : EReal) = Spec.cell cmb Wf Wi Wc bf bi bc c j := by
  rw [pay2_apply, hf, hi, hc, hbf, hbi, hbc, hcb, partDot_add_bias, partDot_add_bias, partDot_add_bias]
  rfl

/-- The stored hidden entry is the new hidden value of hidden unit j, under the same hypotheses and the output gate's. -/
theorem pay3_hidden (cmb : Spec.I1x8192 → EReal) (Wf Wi Wo Wc : Spec.I4096x8192 → EReal) (bf bi bo bc c : Spec.I1x4096 → EReal)
    (fa bfb ia bib oa bob ca bcb cb : Vec Ideal S1x1024 .f32) (j : Fin 4096) (q : Fin 1024)
    (hf : (fa (ix2 (0 : Fin 1) q) : EReal) = partDot cmb Wf j 8) (hi : (ia (ix2 (0 : Fin 1) q) : EReal) = partDot cmb Wi j 8)
    (ho : (oa (ix2 (0 : Fin 1) q) : EReal) = partDot cmb Wo j 8) (hc : (ca (ix2 (0 : Fin 1) q) : EReal) = partDot cmb Wc j 8)
    (hbf : (bfb (ix2 (0 : Fin 1) q) : EReal) = bf (ix2 (0 : Fin 1) j)) (hbi : (bib (ix2 (0 : Fin 1) q) : EReal) = bi (ix2 (0 : Fin 1) j))
    (hbo : (bob (ix2 (0 : Fin 1) q) : EReal) = bo (ix2 (0 : Fin 1) j))
    (hbc : (bcb (ix2 (0 : Fin 1) q) : EReal) = bc (ix2 (0 : Fin 1) j)) (hcb : (cb (ix2 (0 : Fin 1) q) : EReal) = c (ix2 (0 : Fin 1) j)) :
    (k0_pay3 fa bfb ia bib oa bob ca bcb cb (ix2 (0 : Fin 1) q) : EReal) = Spec.hidden cmb Wf Wi Wo Wc bf bi bo bc c j := by
  rw [pay3_apply, pay2_cell cmb Wf Wi Wc bf bi bc c fa bfb ia bib ca bcb cb j q hf hi hc hbf hbi hbc hcb, ho, hbo, partDot_add_bias]
  rfl

end Cert.KernelIdeal.Val.R0

end
-- ==== Proof.R0Blocks.lean ====
/-
  Where the gates kernel's blocks sit in its arrays.

  The grid has 32 points, t = 8·hi + k: hi (0 … 3) is the block of 1024 hidden units, k (0 … 7) the step along the
  contraction axis of 8192 entries. At point t the joined input row's block holds entries 1024·k … 1024·k + 1023 of the
  row; each weight matrix's block holds rows 1024·hi … and columns 1024·k … of the matrix; each bias row's, the previous
  cell row's and each result row's block holds entries 1024·hi … of the row. The result rows' blocks are written back
  after the last step (k = 7) of each hi, and these four blocks cover the row of 4096 entries.
-/
import proofs.«140296_j21131239097236_1_alg».proof.Proof.Gen.KernelIdeal.Launch
import proofs.«140296_j21131239097236_1_alg».proof.Proof.Gen.KernelIdeal.Skeleton
import proofs.«140296_j21131239097236_1_alg».proof.Proof.Gen.KernelIdeal.Points
import proofs.«140296_j21131239097236_1_alg».proof.Proof.Spec
import Idealize.ShloMosaic.Lib.Pipeline.Value
import Idealize.ShloMosaic.Lib.Tactic

set_option maxRecDepth 16384

noncomputable section

open scoped BigOperators

namespace Cert.KernelIdeal.Val.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-- The block index of every window at every point: the contraction step is t mod 8, the block of hidden units t div 8. -/
theorem idx_facts : ∀ t : Fin cfg0.N,
    (win0_0.index t 0 = 0 ∧ win0_0.index t 1 = t.val % 8)
    ∧ (win0_1.index t 0 = t.val / 8 ∧ win0_1.index t 1 = t.val % 8)
    ∧ (win0_2.index t 0 = t.val / 8 ∧ win0_2.index t 1 = t.val % 8)
    ∧ (win0_3.index t 0 = t.val / 8 ∧ win0_3.index t 1 = t.val % 8)
    ∧ (win0_4.index t 0 = t.val / 8 ∧ win0_4.index t 1 = t.val % 8)
    ∧ (win0_5.index t 0 = 0 ∧ win0_5.index t 1 = t.val / 8)
    ∧ (win0_6.index t 0 = 0 ∧ win0_6.index t 1 = t.val / 8)
    ∧ (win0_7.index t 0 = 0 ∧ win0_7.index t 1 = t.val / 8)
    ∧ (win0_8.index t 0 = 0 ∧ win0_8.index t 1 = t.val / 8)
    ∧ (win0_9.index t 0 = 0 ∧ win0_9.index t 1 = t.val / 8)
    ∧ (win0_10.index t 0 = 0 ∧ win0_10.index t 1 = t.val / 8)
    ∧ (win0_11.index t 0 = 0 ∧ win0_11.index t 1 = t.val / 8) :=
  (by decide +kernel : ∀ t : Fin grid0.N, _)

/-- The contraction step of a point. -/
def kOf (t : Fin cfg0.N) : Fin 8 := ⟨t.val % 8, Nat.mod_lt _ (by decide)⟩
/-- The block of hidden units of a point. -/
def hiOf (t : Fin cfg0.N) : Fin 4 := ⟨t.val / 8, by have := t.isLt; have h : cfg0.N = 32 := N_0; omega⟩
/-- Hidden unit q of block hi. -/
def unitOf (hi : Fin 4) (q : Fin 1024) : Fin 4096 := ⟨1024 * hi.val + q.val, by have := hi.isLt; have := q.isLt; omega⟩
/-- Entry r of block k of the joined row. -/
def colOf (k : Fin 8) (r : Fin 1024) : Fin 8192 := ⟨1024 * k.val + r.val, by have := k.isLt; have := r.isLt; omega⟩

/-- The joined row's block at a point: entries 1024·k … of the row. -/
theorem blk0_apply (c : Dev nD) (G : Buf (Elt Ideal) ((c : Thread nD τ).loc main_v0)) (t : Fin cfg0.N) (r : Fin 1024) :
    ((((cfg0.win 0).blk t).view.read (Elt Ideal) G : Vec Ideal S1x1024 .f32) (ix2 (0 : Fin 1) r) : EReal)
      = (G : Spec.I1x8192 → EReal) (ix2 (0 : Fin 1) (colOf (kOf t) r)) := by
  rw [View.read_apply]
  show G _ = G _
  congr 1
  funext a
  apply Fin.ext
  match a with
  | ⟨0, _⟩ => show win0_0.index t 0 * 1 + 1 * 0 = 0; rw [(idx_facts t).1.1]
  | ⟨1, _⟩ => show win0_0.index t 1 * 1024 + 1 * r.val = 1024 * (t.val % 8) + r.val; rw [(idx_facts t).1.2]; omega

/-- The forget weights' block at a point: rows 1024·hi …, columns 1024·k … of the matrix. -/
theorem blk1_apply (c : Dev nD) (G : Buf (Elt Ideal) ((c : Thread nD τ).loc main_arg3)) (t : Fin cfg0.N) (q r : Fin 1024) :
    ((((cfg0.win 1).blk t).view.read (Elt Ideal) G : Vec Ideal S1024x1024 .f32) (ix2 q r) : EReal)
      = (G : Spec.I4096x8192 → EReal) (ix2 (unitOf (hiOf t) q) (colOf (kOf t) r)) := by
  rw [View.read_apply]
  show G _ = G _
  congr 1
  funext a
  apply Fin.ext
  match a with
  | ⟨0, _⟩ => show win0_1.index t 0 * 1024 + 1 * q.val = 1024 * (t.val / 8) + q.val; rw [(idx_facts t).2.1.1]; omega
  | ⟨1, _⟩ => show win0_1.index t 1 * 1024 + 1 * r.val = 1024 * (t.val % 8) + r.val; rw [(idx_facts t).2.1.2]; omega

/-- The input weights' block at a point. -/
theorem blk2_apply (c : Dev nD) (G : Buf (Elt Ideal) ((c : Thread nD τ).loc main_arg5)) (t : Fin cfg0.N) (q r : Fin 1024) :
    ((((cfg0.win 2).blk t).view.read (Elt Ideal) G : Vec Ideal S1024x1024 .f32) (ix2 q r) : EReal)
      = (G : Spec.I4096x8192 → EReal) (ix2 (unitOf (hiOf t) q) (colOf (kOf t) r)) := by
  rw [View.read_apply]
  show G _ = G _
  congr 1
  funext a
  apply Fin.ext
  match a with
  | ⟨0, _⟩ => show win0_2.index t 0 * 1024 + 1 * q.val = 1024 * (t.val / 8) + q.val; rw [(idx_facts t).2.2.1.1]; omega
  | ⟨1, _⟩ => show win0_2.index t 1 * 1024 + 1 * r.val = 1024 * (t.val % 8) + r.val; rw [(idx_facts t).2.2.1.2]; omega

/-- The output weights' block at a point. -/
theorem blk3_apply (c : Dev nD) (G : Buf (Elt Ideal) ((c : Thread nD τ).loc main_arg7)) (t : Fin cfg0.N) (q r : Fin 1024) :
    ((((cfg0.win 3).blk t).view.read (Elt Ideal) G : Vec Ideal S1024x1024 .f32) (ix2 q r) : EReal)
      = (G : Spec.I4096x8192 → EReal) (ix2 (unitOf (hiOf t) q) (colOf (kOf t) r)) := by
  rw [View.read_apply]
  show G _ = G _
  congr 1
  funext a
  apply Fin.ext
  match a with
  | ⟨0, _⟩ => show win0_3.index t 0 * 1024 + 1 * q.val = 1024 * (t.val / 8) + q.val; rw [(idx_facts t).2.2.2.1.1]; omega
  | ⟨1, _⟩ => show win0_3.index t 1 * 1024 + 1 * r.val = 1024 * (t.val % 8) + r.val; rw [(idx_facts t).2.2.2.1.2]; omega

/-- The candidate weights' block at a point. -/
theorem blk4_apply (c : Dev nD) (G : Buf (Elt Ideal) ((c : Thread nD τ).loc main_arg9)) (t : Fin cfg0.N) (q r : Fin 1024) :
    ((((cfg0.win 4).blk t).view.read (Elt Ideal) G : Vec Ideal S1024x1024 .f32) (ix2 q r) : EReal)
      = (G : Spec.I4096x8192 → EReal) (ix2 (unitOf (hiOf t) q) (colOf (kOf t) r)) := by
  rw [View.read_apply]
  show G _ = G _
  congr 1
  funext a
  apply Fin.ext
  match a with
  | ⟨0, _⟩ => show win0_4.index t 0 * 1024 + 1 * q.val = 1024 * (t.val / 8) + q.val; rw [(idx_facts t).2.2.2.2.1.1]; omega
  | ⟨1, _⟩ => show win0_4.index t 1 * 1024 + 1 * r.val = 1024 * (t.val % 8) + r.val; rw [(idx_facts t).2.2.2.2.1.2]; omega

/-- The forget bias row's block at a point: entries 1024·hi … of the row. -/
theorem blk5_apply (c : Dev nD) (G : Buf (Elt Ideal) ((c : Thread nD τ).loc main_v1)) (t : Fin cfg0.N) (q : Fin 1024) :
    ((((cfg0.win 5).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_5.index t 0 * 1 + 1 * 0 = 0; rw [(idx_facts t).2.2.2.2.2.1.1]
  | ⟨1, _⟩ => show win0_5.index t 1 * 1024 + 1 * q.val = 1024 * (t.val / 8) + q.val; rw [(idx_facts t).2.2.2.2.2.1.2]; omega

/-- The input bias row's block at a point. -/
theorem blk6_apply (c : Dev nD) (G : Buf (Elt Ideal) ((c : Thread nD τ).loc main_v2)) (t : Fin cfg0.N) (q : Fin 1024) :
    ((((cfg0.win 6).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_6.index t 0 * 1 + 1 * 0 = 0; rw [(idx_facts t).2.2.2.2.2.2.1.1]
  | ⟨1, _⟩ => show win0_6.index t 1 * 1024 + 1 * q.val = 1024 * (t.val / 8) + q.val; rw [(idx_facts t).2.2.2.2.2.2.1.2]; omega

/-- The output bias row's block at a point. -/
theorem blk7_apply (c : Dev nD) (G : Buf (Elt Ideal) ((c : Thread nD τ).loc main_v3)) (t : Fin cfg0.N) (q : Fin 1024) :
    ((((cfg0.win 7).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_7.index t 0 * 1 + 1 * 0 = 0; rw [(idx_facts t).2.2.2.2.2.2.2.1.1]
  | ⟨1, _⟩ => show win0_7.index t 1 * 1024 + 1 * q.val = 1024 * (t.val / 8) + q.val; rw [(idx_facts t).2.2.2.2.2.2.2.1.2]; omega

/-- The candidate bias row's block at a point. -/
theorem blk8_apply (c : Dev nD) (G : Buf (Elt Ideal) ((c : Thread nD τ).loc main_v4)) (t : Fin cfg0.N) (q : Fin 1024) :
    ((((cfg0.win 8).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_8.index t 0 * 1 + 1 * 0 = 0; rw [(idx_facts t).2.2.2.2.2.2.2.2.1.1]
  | ⟨1, _⟩ => show win0_8.index t 1 * 1024 + 1 * q.val = 1024 * (t.val / 8) + q.val; rw [(idx_facts t).2.2.2.2.2.2.2.2.1.2]; omega

/-- The previous cell row's block at a point. -/
theorem blk9_apply (c : Dev nD) (G : Buf (Elt Ideal) ((c : Thread nD τ).loc main_arg2)) (t : Fin cfg0.N) (q : Fin 1024) :
    ((((cfg0.win 9).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_9.index t 0 * 1 + 1 * 0 = 0; rw [(idx_facts t).2.2.2.2.2.2.2.2.2.1.1]
  | ⟨1, _⟩ => show win0_9.index t 1 * 1024 + 1 * q.val = 1024 * (t.val / 8) + q.val; rw [(idx_facts t).2.2.2.2.2.2.2.2.2.1.2]; omega

/-- The new hidden row's block at a point. -/
theorem blk10_apply (c : Dev nD) (G : Buf (Elt Ideal) ((c : Thread nD τ).loc main_v5_0)) (t : Fin cfg0.N) (q : Fin 1024) :
    ((((cfg0.win 10).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_10.index t 0 * 1 + 1 * 0 = 0; rw [(idx_facts t).2.2.2.2.2.2.2.2.2.2.1.1]
  | ⟨1, _⟩ => show win0_10.index t 1 * 1024 + 1 * q.val = 1024 * (t.val / 8) + q.val; rw [(idx_facts t).2.2.2.2.2.2.2.2.2.2.1.2]; omega

/-- The new cell row's block at a point. -/
theorem blk11_apply (c : Dev nD) (G : Buf (Elt Ideal) ((c : Thread nD τ).loc main_v5_1)) (t : Fin cfg0.N) (q : Fin 1024) :
    ((((cfg0.win 11).blk t).view.read (Elt Ideal) G : Vec Ideal S1x1024 .f32) (ix2 (0 : Fin 1) q) : EReal)
      = (G : Spec.I1x4096 → EReal) (ix2 (0 : Fin 1) (unitOf (hiOf t) q)) := by
  rw [View.read_apply]
  show G _ = G _
  congr 1
  funext a
  apply Fin.ext
  match a with
  | ⟨0, _⟩ => show win0_11.index t 0 * 1 + 1 * 0 = 0; rw [(idx_facts t).2.2.2.2.2.2.2.2.2.2.2.1]
  | ⟨1, _⟩ => show win0_11.index t 1 * 1024 + 1 * q.val = 1024 * (t.val / 8) + q.val; rw [(idx_facts t).2.2.2.2.2.2.2.2.2.2.2.2]; omega

/-- The result windows' blocks are whole at every point. -/
theorem xsize_facts : ∀ t : Fin cfg0.N,
    (win0_10.xsize (grid0.coords t) 0 = 1 ∧ win0_10.xsize (grid0.coords t) 1 = 1024)
    ∧ (win0_11.xsize (grid0.coords t) 0 = 1 ∧ win0_11.xsize (grid0.coords t) 1 = 1024) :=
  (by decide +kernel : ∀ t : Fin grid0.N, _)

/-- Every entry of the row is in the block written back after the last step of its block of hidden units. -/
theorem cover10 (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0 : Nat) < 1 := (i 0).isLt
  have h1 : (i 1 : Nat) < 4096 := (i 1).isLt
  have hN : cfg0.N = 32 := N_0
  have hlt : 8 * ((i 1 : Nat) / 1024) + 7 < cfg0.N := by omega
  refine ⟨⟨8 * ((i 1 : Nat) / 1024) + 7, hlt⟩, (flush0_10 _).mpr (by show (8 * ((i 1 : Nat) / 1024) + 7) % 8 = 7; omega), ?_⟩
  show i ∈ ((View.whole main_v5_0).slice (win0_10.rect ⟨8 * ((i 1 : Nat) / 1024) + 7, hlt⟩)).set
  rw [View.set_slice_whole, Rect.mem_set_unit]
  intro a
  have hv : (⟨8 * ((i 1 : Nat) / 1024) + 7, hlt⟩ : Fin cfg0.N).val / 8 = (i 1 : Nat) / 1024 := by show (8 * ((i 1 : Nat) / 1024) + 7) / 8 = _; omega
  match a with
  | ⟨0, _⟩ =>
    show win0_10.index ⟨8 * ((i 1 : Nat) / 1024) + 7, hlt⟩ 0 * 1 ≤ (i 0 : Nat)
      ∧ (i 0 : Nat) < win0_10.index ⟨8 * ((i 1 : Nat) / 1024) + 7, hlt⟩ 0 * 1 + win0_10.xsize (grid0.coords ⟨8 * ((i 1 : Nat) / 1024) + 7, hlt⟩) 0
    rw [(idx_facts _).2.2.2.2.2.2.2.2.2.2.1.1, (xsize_facts _).1.1]; omega
  | ⟨1, _⟩ =>
    show win0_10.index ⟨8 * ((i 1 : Nat) / 1024) + 7, hlt⟩ 1 * 1024 ≤ (i 1 : Nat)
      ∧ (i 1 : Nat) < win0_10.index ⟨8 * ((i 1 : Nat) / 1024) + 7, hlt⟩ 1 * 1024 + win0_10.xsize (grid0.coords ⟨8 * ((i 1 : Nat) / 1024) + 7, hlt⟩) 1
    rw [(idx_facts _).2.2.2.2.2.2.2.2.2.2.1.2, (xsize_facts _).1.2, hv]; omega

/-- Every entry of the row is in the block written back after the last step of its block of hidden units. -/
theorem cover11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0 : Nat) < 1 := (i 0).isLt
  have h1 : (i 1 : Nat) < 4096 := (i 1).isLt
  have hN : cfg0.N = 32 := N_0
  have hlt : 8 * ((i 1 : Nat) / 1024) + 7 < cfg0.N := by omega
  refine ⟨⟨8 * ((i 1 : Nat) / 1024) + 7, hlt⟩, (flush0_11 _).mpr (by show (8 * ((i 1 : Nat) / 1024) + 7) % 8 = 7; omega), ?_⟩
  show i ∈ ((View.whole main_v5_1).slice (win0_11.rect ⟨8 * ((i 1 : Nat) / 1024) + 7, hlt⟩)).set
  rw [View.set_slice_whole, Rect.mem_set_unit]
  intro a
  have hv : (⟨8 * ((i 1 : Nat) / 1024) + 7, hlt⟩ : Fin cfg0.N).val / 8 = (i 1 : Nat) / 1024 := by show (8 * ((i 1 : Nat) / 1024) + 7) / 8 = _; omega
  match a with
  | ⟨0, _⟩ =>
    show win0_11.index ⟨8 * ((i 1 : Nat) / 1024) + 7, hlt⟩ 0 * 1 ≤ (i 0 : Nat)
      ∧ (i 0 : Nat) < win0_11.index ⟨8 * ((i 1 : Nat) / 1024) + 7, hlt⟩ 0 * 1 + win0_11.xsize (grid0.coords ⟨8 * ((i 1 : Nat) / 1024) + 7, hlt⟩) 0
    rw [(idx_facts _).2.2.2.2.2.2.2.2.2.2.2.1, (xsize_facts _).2.1]; omega
  | ⟨1, _⟩ =>
    show win0_11.index ⟨8 * ((i 1 : Nat) / 1024) + 7, hlt⟩ 1 * 1024 ≤ (i 1 : Nat)
      ∧ (i 1 : Nat) < win0_11.index ⟨8 * ((i 1 : Nat) / 1024) + 7, hlt⟩ 1 * 1024 + win0_11.xsize (grid0.coords ⟨8 * ((i 1 : Nat) / 1024) + 7, hlt⟩) 1
    rw [(idx_facts _).2.2.2.2.2.2.2.2.2.2.2.2, (xsize_facts _).2.2, hv]; omega

/-- A row block that holds, at every entry q, the row's entry 1024·hi + q is the row's block at the point. -/
theorem read10_eq_of_entries (c : Dev nD) (G : Buf (Elt Ideal) ((c : Thread nD τ).loc main_v5_0)) (t : Fin cfg0.N) (X : Vec Ideal S1x1024 .f32)
    (h : ∀ q : Fin 1024, (X (ix2 (0 : Fin 1) q) : EReal) = (G : Spec.I1x4096 → EReal) (ix2 (0 : Fin 1) (unitOf (hiOf t) q))) :
    X = (((cfg0.win 10).blk t).view.read (Elt Ideal) G : Vec Ideal S1x1024 .f32) := by
  funext y
  have hy : y = ix2 (0 : Fin 1) (y 1) := by
    funext a
    match a with
    | ⟨0, _⟩ => exact Fin.ext (by have : ((y 0 : Fin 1) : Nat) < 1 := (y 0).isLt; show ((y 0 : Fin 1) : Nat) = 0; omega)
    | ⟨1, _⟩ => rfl
  rw [hy]
  exact (h (y 1)).trans (blk10_apply c G t (y 1)).symm

/-- A row block that holds, at every entry q, the row's entry 1024·hi + q is the row's block at the point. -/
theorem read11_eq_of_entries (c : Dev nD) (G : Buf (Elt Ideal) ((c : Thread nD τ).loc main_v5_1)) (t : Fin cfg0.N) (X : Vec Ideal S1x1024 .f32)
    (h : ∀ q : Fin 1024, (X (ix2 (0 : Fin 1) q) : EReal) = (G : Spec.I1x4096 → EReal) (ix2 (0 : Fin 1) (unitOf (hiOf t) q))) :
    X = (((cfg0.win 11).blk t).view.read (Elt Ideal) G : Vec Ideal S1x1024 .f32) := by
  funext y
  have hy : y = ix2 (0 : Fin 1) (y 1) := by
    funext a
    match a with
    | ⟨0, _⟩ => exact Fin.ext (by have : ((y 0 : Fin 1) : Nat) < 1 := (y 0).isLt; show ((y 0 : Fin 1) : Nat) = 0; omega)
    | ⟨1, _⟩ => rfl
  rw [hy]
  exact (h (y 1)).trans (blk11_apply c G t (y 1)).symm

end Cert.KernelIdeal.Val.R0

end
-- ==== Proof.R0Value.lean ====
/-
  What region 0 leaves in the new hidden row and the new cell row, at the ideal values.

  Each case of the body leaves, in each of the four running rows, what the row held (zero at a first step) plus the
  step's product, and at a last step stores the new cell and hidden blocks computed from the running rows, the bias blocks
  and the previous cell block. So after the point t = 8·hi + k the running row of a gate holds, at entry q, the first
  k + 1 block sums of hidden unit 1024·hi + q's weighted sum (by induction on the point); after the last step it holds the
  whole weighted sum, and the stored blocks hold the new cell and hidden values of the units 1024·hi … 1024·hi + 1023.
  These blocks are written back after each last step and cover the two result rows.
-/
import proofs.«140296_j21131239097236_1_alg».proof.Proof.KI.R0Data
import proofs.«140296_j21131239097236_1_alg».proof.Proof.R0Pay
import proofs.«140296_j21131239097236_1_alg».proof.Proof.R0Blocks
import Idealize.ShloMosaic.Lib.Pipeline.Value

set_option maxRecDepth 16384

noncomputable section

open scoped BigOperators

namespace Cert.KernelIdeal.Val.R0

open Cert.KernelIdeal Cert.KernelIdeal.Gen Cert.KernelIdeal.Frm
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case leaves, as the kernel's stored values -/

section Pieces

variable {F : FTy → Type} [FloatOps F]

theorem hz : (![0, 0] : Fin 2 → Nat) = fun _ => 0 := funext fun a => by fin_cases a <;> rfl

/-- At a first step the forget gate's running row is left at zero plus the step's product. -/
theorem sA_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay9 x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words

  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a first step the input gate's running row is left at zero plus the step's product. -/
theorem sA_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay10 x0 x2 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words

  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a first step the output gate's running row is left at zero plus the step's product. -/
theorem sA_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay11 x0 x3 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words

  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a first step the candidate gate's running row is left at zero plus the step's product. -/
theorem sA_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay1 (k0_pay8 x0) x4 (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words

  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a middle step the forget gate's running row is left at what it held plus the step's product. -/
theorem sB_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay9 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a middle step the input gate's running row is left at what it held plus the step's product. -/
theorem sB_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a middle step the output gate's running row is left at what it held plus the step's product. -/
theorem sB_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a middle step the candidate gate's running row is left at what it held plus the step's product. -/
theorem sB_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay8 x0) x4 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the forget gate's running row is left at what it held plus the step's product. -/
theorem sC_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay9 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the input gate's running row is left at what it held plus the step's product. -/
theorem sC_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the output gate's running row is left at what it held plus the step's product. -/
theorem sC_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the candidate gate's running row is left at what it held plus the step's product. -/
theorem sC_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay8 x0) x4 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the new hidden row's block is stored: the output gate's logistic times the tanh of the new cell entries, of the running rows after this step's products and the bias blocks. -/
theorem oC_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay3 (k0_pay9 x0 x1 xs0) x5 (k0_pay10 x0 x2 xs1) x6 (k0_pay11 x0 x3 xs2) x7 (k0_pay1 (k0_pay8 x0) x4 xs3) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

/-- At a last step the new cell row's block is stored: of the running rows after this step's products, the bias blocks and the previous cell block. -/
theorem oC_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay2 (k0_pay9 x0 x1 xs0) x5 (k0_pay10 x0 x2 xs1) x6 (k0_pay1 (k0_pay8 x0) x4 xs3) x8 x9 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words

  rw [View.canon_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x1024) hz, View.ld_unit_zero (S := S1024x1024) hz, View.readCov_unit_zero (S := S1x1024) _ hz]

end Pieces

/-! ## The arrays and the blocks by their literal types -/

variable (V : (c : Dev nD) → (b : Ref sig .tc) → Buf (Elt Ideal) ((c : Thread nD τ).loc b))

/-- The joined input row. -/
abbrev cmbA (c : Dev nD) : Spec.I1x8192 → EReal := V c main_v0
/-- The four weight matrices: forget, input, output, candidate. -/
abbrev WfA (c : Dev nD) : Spec.I4096x8192 → EReal := V c main_arg3
abbrev WiA (c : Dev nD) : Spec.I4096x8192 → EReal := V c main_arg5
abbrev WoA (c : Dev nD) : Spec.I4096x8192 → EReal := V c main_arg7
abbrev WcA (c : Dev nD) : Spec.I4096x8192 → EReal := V c main_arg9
/-- The four bias rows and the previous cell row. -/
abbrev bfA (c : Dev nD) : Spec.I1x4096 → EReal := V c main_v1
abbrev biA (c : Dev nD) : Spec.I1x4096 → EReal := V c main_v2
abbrev boA (c : Dev nD) : Spec.I1x4096 → EReal := V c main_v3
abbrev bcA (c : Dev nD) : Spec.I1x4096 → EReal := V c main_v4
abbrev cA (c : Dev nD) : Spec.I1x4096 → EReal := V c main_arg2

/-- The blocks the body reads at a point. -/
abbrev xb (c : Dev nD) (t : Fin cfg0.N) : Vec Ideal S1x1024 .f32 := iblk0 V c 0 t
abbrev wbf (c : Dev nD) (t : Fin cfg0.N) : Vec Ideal S1024x1024 .f32 := iblk0 V c 1 t
abbrev wbi (c : Dev nD) (t : Fin cfg0.N) : Vec Ideal S1024x1024 .f32 := iblk0 V c 2 t
abbrev wbo (c : Dev nD) (t : Fin cfg0.N) : Vec Ideal S1024x1024 .f32 := iblk0 V c 3 t
abbrev wbc (c : Dev nD) (t : Fin cfg0.N) : Vec Ideal S1024x1024 .f32 := iblk0 V c 4 t
abbrev bbf (c : Dev nD) (t : Fin cfg0.N) : Vec Ideal S1x1024 .f32 := iblk0 V c 5 t
abbrev bbi (c : Dev nD) (t : Fin cfg0.N) : Vec Ideal S1x1024 .f32 := iblk0 V c 6 t
abbrev bbo (c : Dev nD) (t : Fin cfg0.N) : Vec Ideal S1x1024 .f32 := iblk0 V c 7 t
abbrev bbc (c : Dev nD) (t : Fin cfg0.N) : Vec Ideal S1x1024 .f32 := iblk0 V c 8 t
abbrev cb (c : Dev nD) (t : Fin cfg0.N) : Vec Ideal S1x1024 .f32 := iblk0 V c 9 t

theorem xb_apply (c : Dev nD) (t : Fin cfg0.N) (r : Fin 1024) :
    (xb V c t (ix2 (0 : Fin 1) r) : EReal) = cmbA V c (ix2 (0 : Fin 1) (colOf (kOf t) r)) := blk0_apply c (V c main_v0) t r
theorem wbf_apply (c : Dev nD) (t : Fin cfg0.N) (q r : Fin 1024) :
    (wbf V c t (ix2 q r) : EReal) = WfA V c (ix2 (unitOf (hiOf t) q) (colOf (kOf t) r)) := blk1_apply c (V c main_arg3) t q r
theorem wbi_apply (c : Dev nD) (t : Fin cfg0.N) (q r : Fin 1024) :
    (wbi V c t (ix2 q r) : EReal) = WiA V c (ix2 (unitOf (hiOf t) q) (colOf (kOf t) r)) := blk2_apply c (V c main_arg5) t q r
theorem wbo_apply (c : Dev nD) (t : Fin cfg0.N) (q r : Fin 1024) :
    (wbo V c t (ix2 q r) : EReal) = WoA V c (ix2 (unitOf (hiOf t) q) (colOf (kOf t) r)) := blk3_apply c (V c main_arg7) t q r
theorem wbc_apply (c : Dev nD) (t : Fin cfg0.N) (q r : Fin 1024) :
    (wbc V c t (ix2 q r) : EReal) = WcA V c (ix2 (unitOf (hiOf t) q) (colOf (kOf t) r)) := blk4_apply c (V c main_arg9) t q r
theorem bbf_apply (c : Dev nD) (t : Fin cfg0.N) (q : Fin 1024) :
    (bbf V c t (ix2 (0 : Fin 1) q) : EReal) = bfA V c (ix2 (0 : Fin 1) (unitOf (hiOf t) q)) := blk5_apply c (V c main_v1) t q
theorem bbi_apply (c : Dev nD) (t : Fin cfg0.N) (q : Fin 1024) :
    (bbi V c t (ix2 (0 : Fin 1) q) : EReal) = biA V c (ix2 (0 : Fin 1) (unitOf (hiOf t) q)) := blk6_apply c (V c main_v2) t q
theorem bbo_apply (c : Dev nD) (t : Fin cfg0.N) (q : Fin 1024) :
    (bbo V c t (ix2 (0 : Fin 1) q) : EReal) = boA V c (ix2 (0 : Fin 1) (unitOf (hiOf t) q)) := blk7_apply c (V c main_v3) t q
theorem bbc_apply (c : Dev nD) (t : Fin cfg0.N) (q : Fin 1024) :
    (bbc V c t (ix2 (0 : Fin 1) q) : EReal) = bcA V c (ix2 (0 : Fin 1) (unitOf (hiOf t) q)) := blk8_apply c (V c main_v4) t q
theorem cb_apply (c : Dev nD) (t : Fin cfg0.N) (q : Fin 1024) :
    (cb V c t (ix2 (0 : Fin 1) q) : EReal) = cA V c (ix2 (0 : Fin 1) (unitOf (hiOf t) q)) := blk9_apply c (V c main_arg2) t q

/-! ## The running rows point by point -/

/-- After a first step the running rows hold zero plus the step's products. -/
theorem acc_first (c : Dev nD) (t : Fin cfg0.N) (h0 : t.val % 8 = 0) (h1 : ¬t.val % 8 = 7) :
    (outsAt0 V c t.val t.isLt).2.2
      = (k0_pay9 (xb V c t) (wbf V c t) (k0_pay4 (F := Ideal)), k0_pay10 (xb V c t) (wbi V c t) (k0_pay5 (F := Ideal)),
          k0_pay11 (xb V c t) (wbo V c t) (k0_pay6 (F := Ideal)), k0_pay1 (k0_pay8 (xb V c t)) (wbc V c t) (k0_pay7 (F := Ideal))) := by
  rw [outsAt0_A V c t h0 h1]
  dsimp only
  rw [sA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)]

/-- After any later step they hold what the point before left plus the step's products. -/
theorem acc_next (c : Dev nD) (t : Fin cfg0.N) (h0 : ¬t.val % 8 = 0) :
    (outsAt0 V c t.val t.isLt).2.2
      = (k0_pay9 (xb V c t) (wbf V c t) (outsAt0 V c (t.val - 1) (Nat.lt_of_le_of_lt (Nat.sub_le _ _) t.isLt)).2.2.1,
          k0_pay10 (xb V c t) (wbi V c t) (outsAt0 V c (t.val - 1) (Nat.lt_of_le_of_lt (Nat.sub_le _ _) t.isLt)).2.2.2.1,
          k0_pay11 (xb V c t) (wbo V c t) (outsAt0 V c (t.val - 1) (Nat.lt_of_le_of_lt (Nat.sub_le _ _) t.isLt)).2.2.2.2.1,
          k0_pay1 (k0_pay8 (xb V c t)) (wbc V c t) (outsAt0 V c (t.val - 1) (Nat.lt_of_le_of_lt (Nat.sub_le _ _) t.isLt)).2.2.2.2.2) := by
  by_cases h1 : t.val % 8 = 7
  · rw [outsAt0_C V c t h0 h1]
    dsimp only
    rw [sC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2]
  · rw [outsAt0_B V c t h0 h1]
    dsimp only
    rw [sB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2]

/-- After a last step the two result blocks hold the stored hidden and cell values. -/
theorem out_last (c : Dev nD) (t : Fin cfg0.N) (h1 : t.val % 8 = 7) :
    (outsAt0 V c t.val t.isLt).1
        = k0_pay3 (k0_pay9 (xb V c t) (wbf V c t) (outsAt0 V c (t.val - 1) (Nat.lt_of_le_of_lt (Nat.sub_le _ _) t.isLt)).2.2.1) (bbf V c t)
            (k0_pay10 (xb V c t) (wbi V c t) (outsAt0 V c (t.val - 1) (Nat.lt_of_le_of_lt (Nat.sub_le _ _) t.isLt)).2.2.2.1) (bbi V c t)
            (k0_pay11 (xb V c t) (wbo V c t) (outsAt0 V c (t.val - 1) (Nat.lt_of_le_of_lt (Nat.sub_le _ _) t.isLt)).2.2.2.2.1) (bbo V c t)
            (k0_pay1 (k0_pay8 (xb V c t)) (wbc V c t) (outsAt0 V c (t.val - 1) (Nat.lt_of_le_of_lt (Nat.sub_le _ _) t.isLt)).2.2.2.2.2) (bbc V c t) (cb V c t)
    ∧ (outsAt0 V c t.val t.isLt).2.1
        = k0_pay2 (k0_pay9 (xb V c t) (wbf V c t) (outsAt0 V c (t.val - 1) (Nat.lt_of_le_of_lt (Nat.sub_le _ _) t.isLt)).2.2.1) (bbf V c t)
            (k0_pay10 (xb V c t) (wbi V c t) (outsAt0 V c (t.val - 1) (Nat.lt_of_le_of_lt (Nat.sub_le _ _) t.isLt)).2.2.2.1) (bbi V c t)
            (k0_pay1 (k0_pay8 (xb V c t)) (wbc V c t) (outsAt0 V c (t.val - 1) (Nat.lt_of_le_of_lt (Nat.sub_le _ _) t.isLt)).2.2.2.2.2) (bbc V c t) (cb V c t) := by
  have h0 : ¬t.val % 8 = 0 := by omega
  rw [outsAt0_C V c t h0 h1]
  dsimp only
  rw [oC_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, oC_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2]
  exact ⟨rfl, rfl⟩

/-! ## The running rows hold partial weighted sums -/

/-- Entry q of the four running rows holds the first m block sums of hidden unit j's four weighted sums. -/
abbrev Holds (c : Dev nD) (p : Vec Ideal S1x1024 .f32 × Vec Ideal S1x1024 .f32 × Vec Ideal S1x1024 .f32 × Vec Ideal S1x1024 .f32) (q : Fin 1024) (j : Fin 4096) (m : ℕ) : Prop :=
  (p.1 (ix2 (0 : Fin 1) q) : EReal) = partDot (cmbA V c) (WfA V c) j m
  ∧ (p.2.1 (ix2 (0 : Fin 1) q) : EReal) = partDot (cmbA V c) (WiA V c) j m
  ∧ (p.2.2.1 (ix2 (0 : Fin 1) q) : EReal) = partDot (cmbA V c) (WoA V c) j m
  ∧ (p.2.2.2 (ix2 (0 : Fin 1) q) : EReal) = partDot (cmbA V c) (WcA V c) j m

/-- One step of the forget gate's running row at a point. -/
theorem step_f (c : Dev nD) (t : Fin cfg0.N) (q : Fin 1024) (acc : Vec Ideal S1x1024 .f32)
    (ha : (acc (ix2 (0 : Fin 1) q) : EReal) = partDot (cmbA V c) (WfA V c) (unitOf (hiOf t) q) (t.val % 8)) :
    (k0_pay9 (xb V c t) (wbf V c t) acc (ix2 (0 : Fin 1) q) : EReal)
      = partDot (cmbA V c) (WfA V c) (unitOf (hiOf t) q) (t.val % 8 + 1) :=
  (pay9_apply (xb V c t) (wbf V c t) acc q).trans
    (acc_step (cmbA V c) (WfA V c) (xb V c t) (wbf V c t) (unitOf (hiOf t) q) (kOf t) q (acc (ix2 (0 : Fin 1) q)) ha
      (fun r => xb_apply V c t r) (fun r => wbf_apply V c t q r))
/-- One step of the input gate's running row. -/
theorem step_i (c : Dev nD) (t : Fin cfg0.N) (q : Fin 1024) (acc : Vec Ideal S1x1024 .f32)
    (ha : (acc (ix2 (0 : Fin 1) q) : EReal) = partDot (cmbA V c) (WiA V c) (unitOf (hiOf t) q) (t.val % 8)) :
    (k0_pay10 (xb V c t) (wbi V c t) acc (ix2 (0 : Fin 1) q) : EReal)
      = partDot (cmbA V c) (WiA V c) (unitOf (hiOf t) q) (t.val % 8 + 1) :=
  (pay10_apply (xb V c t) (wbi V c t) acc q).trans
    (acc_step (cmbA V c) (WiA V c) (xb V c t) (wbi V c t) (unitOf (hiOf t) q) (kOf t) q (acc (ix2 (0 : Fin 1) q)) ha
      (fun r => xb_apply V c t r) (fun r => wbi_apply V c t q r))
/-- One step of the output gate's running row. -/
theorem step_o (c : Dev nD) (t : Fin cfg0.N) (q : Fin 1024) (acc : Vec Ideal S1x1024 .f32)
    (ha : (acc (ix2 (0 : Fin 1) q) : EReal) = partDot (cmbA V c) (WoA V c) (unitOf (hiOf t) q) (t.val % 8)) :
    (k0_pay11 (xb V c t) (wbo V c t) acc (ix2 (0 : Fin 1) q) : EReal)
      = partDot (cmbA V c) (WoA V c) (unitOf (hiOf t) q) (t.val % 8 + 1) :=
  (pay11_apply (xb V c t) (wbo V c t) acc q).trans
    (acc_step (cmbA V c) (WoA V c) (xb V c t) (wbo V c t) (unitOf (hiOf t) q) (kOf t) q (acc (ix2 (0 : Fin 1) q)) ha
      (fun r => xb_apply V c t r) (fun r => wbo_apply V c t q r))
/-- One step of the candidate gate's running row. -/
theorem step_c (c : Dev nD) (t : Fin cfg0.N) (q : Fin 1024) (acc : Vec Ideal S1x1024 .f32)
    (ha : (acc (ix2 (0 : Fin 1) q) : EReal) = partDot (cmbA V c) (WcA V c) (unitOf (hiOf t) q) (t.val % 8)) :
    (k0_pay1 (k0_pay8 (xb V c t)) (wbc V c t) acc (ix2 (0 : Fin 1) q) : EReal)
      = partDot (cmbA V c) (WcA V c) (unitOf (hiOf t) q) (t.val % 8 + 1) :=
  (pay1_apply (xb V c t) (wbc V c t) acc q).trans
    (acc_step (cmbA V c) (WcA V c) (xb V c t) (wbc V c t) (unitOf (hiOf t) q) (kOf t) q (acc (ix2 (0 : Fin 1) q)) ha
      (fun r => xb_apply V c t r) (fun r => wbc_apply V c t q r))

/-- One step of the four running rows at a point. -/
theorem holds_step (c : Dev nD) (t : Fin cfg0.N) (q : Fin 1024) (p : Vec Ideal S1x1024 .f32 × Vec Ideal S1x1024 .f32 × Vec Ideal S1x1024 .f32 × Vec Ideal S1x1024 .f32)
    (hp : Holds V c p q (unitOf (hiOf t) q) (t.val % 8)) :
    Holds V c (k0_pay9 (xb V c t) (wbf V c t) p.1, k0_pay10 (xb V c t) (wbi V c t) p.2.1,
        k0_pay11 (xb V c t) (wbo V c t) p.2.2.1, k0_pay1 (k0_pay8 (xb V c t)) (wbc V c t) p.2.2.2)
      q (unitOf (hiOf t) q) (t.val % 8 + 1) :=
  ⟨step_f V c t q p.1 hp.1, step_i V c t q p.2.1 hp.2.1, step_o V c t q p.2.2.1 hp.2.2.1, step_c V c t q p.2.2.2 hp.2.2.2⟩

/-- After a first step: one block sum. -/
theorem inv_first (c : Dev nD) (t : Fin cfg0.N) (h0 : t.val % 8 = 0) (q : Fin 1024) :
    Holds V c (outsAt0 V c t.val t.isLt).2.2 q (unitOf (hiOf t) q) (t.val % 8 + 1) := by
  rw [acc_first V c t h0 (by omega)]
  refine holds_step V c t q (k0_pay4 (F := Ideal), k0_pay5 (F := Ideal), k0_pay6 (F := Ideal), k0_pay7 (F := Ideal)) ?_
  rw [h0]
  exact ⟨(pay4_apply (ix2 (0 : Fin 1) q)).trans (partDot_zero _ _ _).symm, (pay5_apply (ix2 (0 : Fin 1) q)).trans (partDot_zero _ _ _).symm,
    (pay6_apply (ix2 (0 : Fin 1) q)).trans (partDot_zero _ _ _).symm, (pay7_apply (ix2 (0 : Fin 1) q)).trans (partDot_zero _ _ _).symm⟩

/-- After a later step: one block sum more than after the point before. -/
theorem inv_next (c : Dev nD) (t : Fin cfg0.N) (h0 : ¬t.val % 8 = 0) (q : Fin 1024)
    (ih : Holds V c (outsAt0 V c (t.val - 1) (Nat.lt_of_le_of_lt (Nat.sub_le _ _) t.isLt)).2.2 q (unitOf (hiOf t) q) (t.val % 8)) :
    Holds V c (outsAt0 V c t.val t.isLt).2.2 q (unitOf (hiOf t) q) (t.val % 8 + 1) := by
  rw [acc_next V c t h0]
  exact holds_step V c t q (outsAt0 V c (t.val - 1) (Nat.lt_of_le_of_lt (Nat.sub_le _ _) t.isLt)).2.2 ih

/-- After the point n the running rows hold the first n mod 8 + 1 block sums of the point's hidden units. -/
theorem acc_inv (c : Dev nD) (n : ℕ) : ∀ (hn : n < cfg0.N) (q : Fin 1024),
    Holds V c (outsAt0 V c n hn).2.2 q (unitOf (hiOf ⟨n, hn⟩) q) (n % 8 + 1) := by
  induction n with
  | zero => exact fun hn q => inv_first V c ⟨0, hn⟩ (Nat.zero_mod 8) q
  | succ n ih =>
    intro hn q
    by_cases h0 : (n + 1) % 8 = 0
    · exact inv_first V c ⟨n + 1, hn⟩ h0 q
    · have hp := ih (Nat.lt_of_succ_lt hn) q
      have hj : unitOf (hiOf ⟨n, Nat.lt_of_succ_lt hn⟩) q = unitOf (hiOf ⟨n + 1, hn⟩) q :=
        Fin.ext (by show 1024 * (n / 8) + q.val = 1024 * ((n + 1) / 8) + q.val; omega)
      have hk : n % 8 + 1 = (n + 1) % 8 := by omega
      rw [hj, hk] at hp
      exact inv_next V c ⟨n + 1, hn⟩ h0 q hp

/-! ## The last step's blocks are the new hidden and cell values -/

/-- The running rows after a last step's products hold the whole weighted sums. -/
theorem holds_last (c : Dev nD) (t : Fin cfg0.N) (h7 : t.val % 8 = 7) (q : Fin 1024) :
    Holds V c (k0_pay9 (xb V c t) (wbf V c t) (outsAt0 V c (t.val - 1) (Nat.lt_of_le_of_lt (Nat.sub_le _ _) t.isLt)).2.2.1, k0_pay10 (xb V c t) (wbi V c t) (outsAt0 V c (t.val - 1) (Nat.lt_of_le_of_lt (Nat.sub_le _ _) t.isLt)).2.2.2.1,
        k0_pay11 (xb V c t) (wbo V c t) (outsAt0 V c (t.val - 1) (Nat.lt_of_le_of_lt (Nat.sub_le _ _) t.isLt)).2.2.2.2.1, k0_pay1 (k0_pay8 (xb V c t)) (wbc V c t) (outsAt0 V c (t.val - 1) (Nat.lt_of_le_of_lt (Nat.sub_le _ _) t.isLt)).2.2.2.2.2)
      q (unitOf (hiOf t) q) 8 := by
  have hlt : t.val - 1 < cfg0.N := Nat.lt_of_le_of_lt (Nat.sub_le _ _) t.isLt
  have hp := acc_inv V c (t.val - 1) hlt q
  have hj : unitOf (hiOf ⟨t.val - 1, hlt⟩) q = unitOf (hiOf t) q :=
    Fin.ext (by show 1024 * ((t.val - 1) / 8) + q.val = 1024 * (t.val / 8) + q.val; omega)
  have hk : (t.val - 1) % 8 + 1 = t.val % 8 := by omega
  rw [hj, hk] at hp
  have hs := holds_step V c t q (outsAt0 V c (t.val - 1) (Nat.lt_of_le_of_lt (Nat.sub_le _ _) t.isLt)).2.2 hp
  rw [h7] at hs
  exact hs

/-- The new hidden row's block after a last step, at an entry. -/
theorem last_hidden (c : Dev nD) (t : Fin cfg0.N) (h7 : t.val % 8 = 7) (q : Fin 1024) :
    ((outsAt0 V c t.val t.isLt).1 (ix2 (0 : Fin 1) q) : EReal)
      = Spec.hidden (cmbA V c) (WfA V c) (WiA V c) (WoA V c) (WcA V c) (bfA V c) (biA V c) (boA V c) (bcA V c) (cA V c)
          (unitOf (hiOf t) q) := by
  obtain ⟨hf, hi, ho, hc⟩ := holds_last V c t h7 q
  rw [(out_last V c t h7).1]
  exact pay3_hidden (cmbA V c) (WfA V c) (WiA V c) (WoA V c) (WcA V c) (bfA V c) (biA V c) (boA V c) (bcA V c) (cA V c)
    (k0_pay9 (xb V c t) (wbf V c t) (outsAt0 V c (t.val - 1) (Nat.lt_of_le_of_lt (Nat.sub_le _ _) t.isLt)).2.2.1) (bbf V c t)
    (k0_pay10 (xb V c t) (wbi V c t) (outsAt0 V c (t.val - 1) (Nat.lt_of_le_of_lt (Nat.sub_le _ _) t.isLt)).2.2.2.1) (bbi V c t)
    (k0_pay11 (xb V c t) (wbo V c t) (outsAt0 V c (t.val - 1) (Nat.lt_of_le_of_lt (Nat.sub_le _ _) t.isLt)).2.2.2.2.1) (bbo V c t)
    (k0_pay1 (k0_pay8 (xb V c t)) (wbc V c t) (outsAt0 V c (t.val - 1) (Nat.lt_of_le_of_lt (Nat.sub_le _ _) t.isLt)).2.2.2.2.2) (bbc V c t) (cb V c t)
    (unitOf (hiOf t) q) q hf hi ho hc (bbf_apply V c t q) (bbi_apply V c t q) (bbo_apply V c t q) (bbc_apply V c t q) (cb_apply V c t q)

/-- The new cell row's block after a last step, at an entry. -/
theorem last_cell (c : Dev nD) (t : Fin cfg0.N) (h7 : t.val % 8 = 7) (q : Fin 1024) :
    ((outsAt0 V c t.val t.isLt).2.1 (ix2 (0 : Fin 1) q) : EReal)
      = Spec.cell (cmbA V c) (WfA V c) (WiA V c) (WcA V c) (bfA V c) (biA V c) (bcA V c) (cA V c) (unitOf (hiOf t) q) := by
  obtain ⟨hf, hi, ho, hc⟩ := holds_last V c t h7 q
  rw [(out_last V c t h7).2]
  exact pay2_cell (cmbA V c) (WfA V c) (WiA V c) (WcA V c) (bfA V c) (biA V c) (bcA V c) (cA V c)
    (k0_pay9 (xb V c t) (wbf V c t) (outsAt0 V c (t.val - 1) (Nat.lt_of_le_of_lt (Nat.sub_le _ _) t.isLt)).2.2.1) (bbf V c t)
    (k0_pay10 (xb V c t) (wbi V c t) (outsAt0 V c (t.val - 1) (Nat.lt_of_le_of_lt (Nat.sub_le _ _) t.isLt)).2.2.2.1) (bbi V c t)
    (k0_pay1 (k0_pay8 (xb V c t)) (wbc V c t) (outsAt0 V c (t.val - 1) (Nat.lt_of_le_of_lt (Nat.sub_le _ _) t.isLt)).2.2.2.2.2) (bbc V c t) (cb V c t)
    (unitOf (hiOf t) q) q hf hi hc (bbf_apply V c t q) (bbi_apply V c t q) (bbc_apply V c t q) (cb_apply V c t q)

/-! ## The two result rows after the region -/

/-- What a last step writes back of the new hidden row is its block of the hidden values. -/
theorem flushed10 (c : Dev nD) (t : Fin cfg0.N) (hf : (cfg0.win 10).flush t = true) :
    (dat0 V c).flushed 10 t
      = ((cfg0.win 10).blk t).view.read (Elt Ideal)
          (Cert.Spec.hiddenRow (V c main_v0) (V c main_arg3) (V c main_arg5) (V c main_arg7) (V c main_arg9) (V c main_v1) (V c main_v2) (V c main_v3) (V c main_v4) (V c main_arg2)) := by
  have h7 : t.val % 8 = 7 := (flush0_10 t).mp hf
  show (cfg0.win 10).cut (grid0.coords t) ((dat0 V c).after 10 t) = _
  rw [after0_10]
  refine read10_eq_of_entries c _ t (outsAt0 V c t.val t.isLt).1 fun q => ?_
  exact last_hidden V c t h7 q

/-- What a last step writes back of the new cell row is its block of the cell values. -/
theorem flushed11 (c : Dev nD) (t : Fin cfg0.N) (hf : (cfg0.win 11).flush t = true) :
    (dat0 V c).flushed 11 t
      = ((cfg0.win 11).blk t).view.read (Elt Ideal)
          (Cert.Spec.cellRow (V c main_v0) (V c main_arg3) (V c main_arg5) (V c main_arg9) (V c main_v1) (V c main_v2) (V c main_v4) (V c main_arg2)) := by
  have h7 : t.val % 8 = 7 := (flush0_11 t).mp hf
  show (cfg0.win 11).cut (grid0.coords t) ((dat0 V c).after 11 t) = _
  rw [after0_11]
  refine read11_eq_of_entries c _ t (outsAt0 V c t.val t.isLt).2.1 fun q => ?_
  exact last_cell V c t h7 q

/-- The new hidden row after the region: entry j is the new hidden value of unit j. -/
theorem final0_10 (c : Dev nD) : ((dat0 (F := Ideal) V c).arrAt 10 cfg0.N : S1x4096.Idx → EReal)
    = Cert.Spec.hiddenRow (V c main_v0) (V c main_arg3) (V c main_arg5) (V c main_arg7) (V c main_arg9) (V c main_v1) (V c main_v2) (V c main_v3) (V c main_v4) (V c main_arg2) :=
  (dat0 V c).arrAt_eq_of_cover 10
    (Cert.Spec.hiddenRow (V c main_v0) (V c main_arg3) (V c main_arg5) (V c main_arg7) (V c main_arg9) (V c main_v1) (V c main_v2) (V c main_v3) (V c main_v4) (V c main_arg2))
    (fun t hf => flushed10 V c t hf) (cover10 c)

/-- The new cell row after the region: entry j is the new cell value of unit j. -/
theorem final0_11 (c : Dev nD) : ((dat0 (F := Ideal) V c).arrAt 11 cfg0.N : S1x4096.Idx → EReal)
    = Cert.Spec.cellRow (V c main_v0) (V c main_arg3) (V c main_arg5) (V c main_arg9) (V c main_v1) (V c main_v2) (V c main_v4) (V c main_arg2) :=
  (dat0 V c).arrAt_eq_of_cover 11
    (Cert.Spec.cellRow (V c main_v0) (V c main_arg3) (V c main_arg5) (V c main_arg9) (V c main_v1) (V c main_v2) (V c main_v4) (V c main_arg2))
    (fun t hf => flushed11 V c t hf) (cover11 c)

end Cert.KernelIdeal.Val.R0

end
-- ==== Proof.R1Pay.lean ====
/-
  The three values the output-projection kernel stores, read at one entry over the extended reals, and the
  regrouping of a logit's sum over the 4096 hidden units into the four blocks of 1024 the kernel adds one step at a time.

  * the reset value is 0 at every entry;
  * one accumulation step adds, at column q, the products of the hidden block against row q of the weight block;
  * the last step's output is the accumulator plus the bias block;
  * an accumulator reset at the first of every four steps and adding one block's products at each step holds,
    after the fourth, the whole sum over the 4096 hidden units: with the bias, the logit.
-/
import proofs.«140296_j21131239097236_1_alg».proof.Proof.Gen.KernelIdeal.Skeleton
import proofs.«140296_j21131239097236_1_alg».proof.Proof.Spec
import proofs.«140296_j21131239097236_1_alg».proof.Proof.LibDotRows
import proofs.«140296_j21131239097236_1_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## The stored values at an entry -/

/-- The reset value is 0 everywhere. -/
theorem k1_pay1_apply (i : S1x3200.Idx) : k1_pay1 (F := Ideal) i = 0 := by
  unfold k1_pay1
  rw [shapeCast_self]
  exact Ideal.ofBits_zero_f32

/-- The kernel's product contracts axis 1 of both operands and keeps axis 0 of both. -/
theorem dot1_rowsRows : Cert.Lib.DotRows.RowsRows dot_S1x1024_S3200x1024_S1x3200_1_1_0_0_n_n :=
  ⟨rfl, rfl, rfl, rfl, rfl, rfl⟩

/-- One accumulation step at column q: the accumulator plus ∑ₖ x0[k]·w[q,k]. -/
theorem k1_pay2_apply (x0 : Vec Ideal S1x1024 .f32) (w : Vec Ideal S3200x1024 .f32) (acc : Vec Ideal S1x3200 .f32) (q : Fin 3200) :
    k1_pay2 (F := Ideal) x0 w acc (ix2 (0 : Fin 1) q)
      = acc (ix2 (0 : Fin 1) q) + ∑ k : Fin 1024, x0 (ix2 (0 : Fin 1) k) * w (ix2 q k) := by
  unfold k1_pay2
  simp only [shapeCast_self]
  rw [addf_apply, dot1_rowsRows.matmul_zero_apply]
  rfl

/-- The last step's output at column q: the accumulator plus the bias. -/
theorem k1_pay3_apply (acc b : Vec Ideal S1x3200 .f32) (q : Fin 3200) :
    k1_pay3 (F := Ideal) acc b (ix2 (0 : Fin 1) q) = acc (ix2 (0 : Fin 1) q) + b (ix2 (0 : Fin 1) q) := by
  unfold k1_pay3
  simp only [shapeCast_self]
  rfl

/-! ## The logit as four blocks of 1024 hidden units -/

/-- Block k's share of logit n: the products over hidden units 1024·k … 1024·k + 1023. -/
def part (hid : Cert.Spec.I1x4096 → EReal) (Wout : Cert.Spec.I32000x4096 → EReal) (n : Fin 32000) (k : Fin 4) : EReal :=
  ∑ r : Fin 1024, hid (ix2 (0 : Fin 1) (⟨1024 * k.val + r.val, by have := k.isLt; have := r.isLt; omega⟩ : Fin 4096))
    * Wout (ix2 n (⟨1024 * k.val + r.val, by have := k.isLt; have := r.isLt; omega⟩ : Fin 4096))

/-- The four blocks' shares add up to the sum over all 4096 hidden units. -/
theorem sum_parts (hid : Cert.Spec.I1x4096 → EReal) (Wout : Cert.Spec.I32000x4096 → EReal) (n : Fin 32000) :
    ∑ k : Fin 4, part hid Wout n k = ∑ j : Fin 4096, hid (ix2 (0 : Fin 1) j) * Wout (ix2 n j) :=
  (Cert.SumLib.sum_blocks 4 1024 (fun j : Fin (4 * 1024) => hid (ix2 (0 : Fin 1) j) * Wout (ix2 n j))
    fun j r => by have := j.isLt; have := r.isLt; omega).symm

/-- Logit n is the four blocks' shares plus the bias. -/
theorem logit_eq_parts (hid : Cert.Spec.I1x4096 → EReal) (Wout : Cert.Spec.I32000x4096 → EReal)
    (bout : Cert.Spec.I1x32000 → EReal) (n : Fin 32000) :
    Cert.Spec.logit hid Wout bout n = (∑ k : Fin 4, part hid Wout n k) + bout (ix2 (0 : Fin 1) n) := by
  rw [sum_parts]; rfl

/-! ## The accumulator over the steps -/

/-- An accumulator that is reset at the first of every four steps and otherwise adds its step's term to what the step
    before left holds, after the fourth step of a group, the four terms of the group. -/
theorem acc_last4 (N : ℕ) (o S : ℕ → EReal) (h0 : ∀ t, t < N → t % 4 = 0 → o t = S t)
    (h1 : ∀ t, t < N → t % 4 ≠ 0 → o t = o (t - 1) + S t) (t : ℕ) (ht : t < N) (h3 : t % 4 = 3) :
    o t = ∑ k : Fin 4, S (4 * (t / 4) + k.val) := by
  rw [Cert.SumLib.acc_closed_lt 4 N (by decide) o S h0 h1 t ht, h3]
  have e : t - 3 = 4 * (t / 4) := by omega
  rw [e]
  exact Finset.sum_range fun j => S (4 * (t / 4) + j)

/-- So when the group's four terms are the four blocks' shares of logit n, the accumulator after the fourth step
    is the whole sum over the hidden units … -/
theorem acc_last4_sum (hid : Cert.Spec.I1x4096 → EReal) (Wout : Cert.Spec.I32000x4096 → EReal) (n : Fin 32000)
    (N : ℕ) (o S : ℕ → EReal) (h0 : ∀ t, t < N → t % 4 = 0 → o t = S t)
    (h1 : ∀ t, t < N → t % 4 ≠ 0 → o t = o (t - 1) + S t) (t : ℕ) (ht : t < N) (h3 : t % 4 = 3)
    (hS : ∀ k : Fin 4, S (4 * (t / 4) + k.val) = part hid Wout n k) :
    o t = ∑ j : Fin 4096, hid (ix2 (0 : Fin 1) j) * Wout (ix2 n j) := by
  rw [acc_last4 N o S h0 h1 t ht h3, ← sum_parts]
  exact Finset.sum_congr rfl fun k _ => hS k

/-- … and adding the bias gives the logit. -/
theorem acc_last4_logit (hid : Cert.Spec.I1x4096 → EReal) (Wout : Cert.Spec.I32000x4096 → EReal)
    (bout : Cert.Spec.I1x32000 → EReal) (n : Fin 32000)
    (N : ℕ) (o S : ℕ → EReal) (h0 : ∀ t, t < N → t % 4 = 0 → o t = S t)
    (h1 : ∀ t, t < N → t % 4 ≠ 0 → o t = o (t - 1) + S t) (t : ℕ) (ht : t < N) (h3 : t % 4 = 3)
    (hS : ∀ k : Fin 4, S (4 * (t / 4) + k.val) = part hid Wout n k) :
    o t + bout (ix2 (0 : Fin 1) n) = Cert.Spec.logit hid Wout bout n := by
  rw [acc_last4_sum hid Wout n N o S h0 h1 t ht h3 hS]; rfl

/-- The first step of a group, which adds its term to the reset value, holds just the term. -/
theorem k1_pay2_reset_apply (x0 : Vec Ideal S1x1024 .f32) (w : Vec Ideal S3200x1024 .f32) (q : Fin 3200) :
    k1_pay2 (F := Ideal) x0 w (k1_pay1 (F := Ideal)) (ix2 (0 : Fin 1) q)
      = ∑ k : Fin 1024, x0 (ix2 (0 : Fin 1) k) * w (ix2 q k) := by
  rw [k1_pay2_apply, k1_pay1_apply, zero_add]

end Cert.KernelIdeal.Val

end
-- ==== Proof.R1Value.lean ====
/-
  What the output projection leaves in the logits row, over the extended reals.

  The grid has ten groups of four steps; group ni, step k is point t = ni·4 + k. At each step the body adds to an
  accumulator of 3200 columns the products of hidden units 1024·k … 1024·k + 1023 against rows ni·3200 … ni·3200 + 3199
  of the output weights, after resetting it at the group's first step; at the group's last step it stores the accumulator
  plus columns ni·3200 … of the bias row into columns ni·3200 … of the logits row. So after the run entry n of the logits
  row is ∑ⱼ hid[j]·W[n,j] + b[n] over all 4096 hidden units: the four steps' shares are the sum regrouped in blocks of 1024.
-/
import proofs.«140296_j21131239097236_1_alg».proof.Proof.KI.R1Data
import proofs.«140296_j21131239097236_1_alg».proof.Proof.Spec
import proofs.«140296_j21131239097236_1_alg».proof.Proof.R1Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.Tactic Idealize.ShloMosaic.ValueIdx Idealize.SL.Sem
open Idealize.ShloMosaic.Pipeline (Dat)

/-! ## What each case of the body leaves, as the stored values of the blocks it read -/

section Pieces
variable {F : FTy → Type} [FloatOps F]

theorem hz : (![0, 0] : Fin 2 → Nat) = fun _ => 0 := funext fun a => by fin_cases a <;> rfl

/-- The first step of a group resets the accumulator and then adds the two blocks' product to the reset value. -/
theorem soutA_eq (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero (S := S1x3200) hz]
  simp only [View.readAt_eq_ld, harg2.read_unread, harg3.read_unread, View.ld_unit_zero (S := S1x1024) hz,
    View.ld_unit_zero (S := S3200x1024) hz, View.readCov_unit_zero (S := S1x3200) _ hz]

/-- A middle step leaves in the accumulator what it held plus the two blocks' product. -/
theorem soutB_eq (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero (S := S1x3200) hz]
  simp only [View.readAt_eq_ld, harg2.read_unread, harg3.read_unread, harg6.read_unread, View.ld_unit_zero (S := S1x1024) hz,
    View.ld_unit_zero (S := S3200x1024) hz, View.ld_unit_zero (S := S1x3200) hz]

/-- The last step of a group leaves the same in the accumulator … -/
theorem soutC_eq (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero (S := S1x3200) hz]
  simp only [View.readAt_eq_ld, harg2.read_unread, harg3.read_unread, harg6.read_unread, View.ld_unit_zero (S := S1x1024) hz,
    View.ld_unit_zero (S := S3200x1024) hz, View.ld_unit_zero (S := S1x3200) hz]

/-- … and stores into the output that accumulator plus the bias block. -/
theorem outC_eq (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero (S := S1x3200) hz]
  simp only [View.readAt_eq_ld, harg2.read_unread, harg3.read_unread, harg4.read_unread, harg6.read_unread, View.ld_unit_zero (S := S1x1024) hz,
    View.ld_unit_zero (S := S3200x1024) hz, View.ld_unit_zero (S := S1x3200) hz, View.readCov_unit_zero (S := S1x3200) _ hz]

end Pieces

/-! ## The blocks the windows read -/

section Blocks
variable {F : FTy → Type} [FloatOps F]
variable (V : (c : Dev nD) → (b : Ref sig .tc) → Buf (Elt F) ((c : Thread nD τ).loc b))

/-- The hidden row, the output weights and the output bias row as the region finds them. -/
abbrev hidArr (c : Dev nD) : Vec F S1x4096 .f32 := V c main_v5_0
abbrev wArr (c : Dev nD) : Vec F S32000x4096 .f32 := V c main_arg11
abbrev bArr (c : Dev nD) : Vec F S1x32000 .f32 := V c main_v6
/-- The three input blocks at a point. -/
abbrev xblk (c : Dev nD) (t : Fin cfg1.N) : Vec F S1x1024 .f32 := iblk1 V c 0 t
abbrev wblk (c : Dev nD) (t : Fin cfg1.N) : Vec F S3200x1024 .f32 := iblk1 V c 1 t
abbrev bblk (c : Dev nD) (t : Fin cfg1.N) : Vec F S1x3200 .f32 := iblk1 V c 2 t

/-- The block indices at point t = ni·4 + k: (0, k), (ni, k), (0, ni), (0, ni). -/
theorem idx1 : ∀ t : Fin cfg1.N, win1_0.index t 0 = 0 ∧ win1_0.index t 1 = t.val % 4 ∧ win1_1.index t 0 = t.val / 4
      ∧ win1_1.index t 1 = t.val % 4 ∧ win1_2.index t 0 = 0 ∧ win1_2.index t 1 = t.val / 4 ∧ win1_3.index t 0 = 0
      ∧ win1_3.index t 1 = t.val / 4 :=
  (by decide +kernel : ∀ t : Fin grid1.N, win1_0.index t 0 = 0 ∧ win1_0.index t 1 = t.val % 4 ∧ win1_1.index t 0 = t.val / 4
      ∧ win1_1.index t 1 = t.val % 4 ∧ win1_2.index t 0 = 0 ∧ win1_2.index t 1 = t.val / 4 ∧ win1_3.index t 0 = 0
      ∧ win1_3.index t 1 = t.val / 4)

/-- The hidden block at point t is columns (t % 4)·1024 … of the hidden row. -/
theorem xblk_apply (c : Dev nD) (t : Fin cfg1.N) (r : Fin 1024) (j : Fin 4096) (hj : j.val = t.val % 4 * 1024 + r.val) :
    xblk V c t (ix2 (0 : Fin 1) r) = hidArr V c (ix2 (0 : Fin 1) j) := by
  unfold xblk iblk1
  rw [View.read_apply]
  show V c main_v5_0 _ = V c main_v5_0 _
  congr 1
  funext a
  apply Fin.ext
  match a with
  | ⟨0, _⟩ => show win1_0.index t 0 * 1 + 1 * 0 = 0; rw [(idx1 t).1]
  | ⟨1, _⟩ => show win1_0.index t 1 * 1024 + 1 * r.val = j.val; rw [(idx1 t).2.1, hj]; omega

/-- The weight block at point t is rows (t / 4)·3200 …, columns (t % 4)·1024 … of the output weights. -/
theorem wblk_apply (c : Dev nD) (t : Fin cfg1.N) (q : Fin 3200) (r : Fin 1024) (n : Fin 32000) (j : Fin 4096)
    (hn : n.val = t.val / 4 * 3200 + q.val) (hj : j.val = t.val % 4 * 1024 + r.val) :
    wblk V c t (ix2 q r) = wArr V c (ix2 n j) := by
  unfold wblk iblk1
  rw [View.read_apply]
  show V c main_arg11 _ = V c main_arg11 _
  congr 1
  funext a
  apply Fin.ext
  match a with
  | ⟨0, _⟩ => show win1_1.index t 0 * 3200 + 1 * q.val = n.val; rw [(idx1 t).2.2.1, hn]; omega
  | ⟨1, _⟩ => show win1_1.index t 1 * 1024 + 1 * r.val = j.val; rw [(idx1 t).2.2.2.1, hj]; omega

/-- The bias block at point t is columns (t / 4)·3200 … of the bias row. -/
theorem bblk_apply (c : Dev nD) (t : Fin cfg1.N) (q : Fin 3200) (n : Fin 32000) (hn : n.val = t.val / 4 * 3200 + q.val) :
    bblk V c t (ix2 (0 : Fin 1) q) = bArr V c (ix2 (0 : Fin 1) n) := by
  unfold bblk iblk1
  rw [View.read_apply]
  show V c main_v6 _ = V c main_v6 _
  congr 1
  funext a
  apply Fin.ext
  match a with
  | ⟨0, _⟩ => show win1_2.index t 0 * 1 + 1 * 0 = 0; rw [(idx1 t).2.2.2.2.1]
  | ⟨1, _⟩ => show win1_2.index t 1 * 3200 + 1 * q.val = n.val; rw [(idx1 t).2.2.2.2.2.1, hn]; omega

/-! ## The cases at a point of the grid -/

/-- At a group's first step the accumulator ends at the product added to the reset value. -/
theorem soutA_at (c : Dev nD) (t : Fin cfg1.N) (h0 : t.val % 4 = 0) (h1 : ¬t.val % 4 = 3) :
    sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)
      = k1_pay2 (xblk V c t) (wblk V c t) (k1_pay1 (F := F)) :=
  soutA_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At a middle step it ends at what the step before left plus the product. -/
theorem soutB_at (c : Dev nD) (t : Fin cfg1.N) (h0 : ¬t.val % 4 = 0) (h1 : ¬t.val % 4 = 3) (xs0 : Vec F S1x3200 .f32) :
    sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs0
      = k1_pay2 (xblk V c t) (wblk V c t) xs0 :=
  soutB_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs0

/-- At a group's last step likewise … -/
theorem soutC_at (c : Dev nD) (t : Fin cfg1.N) (h0 : ¬t.val % 4 = 0) (h1 : t.val % 4 = 3) (xs0 : Vec F S1x3200 .f32) :
    sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0
      = k1_pay2 (xblk V c t) (wblk V c t) xs0 :=
  soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0

/-- … and the output's buffer ends at that accumulator plus the bias block. -/
theorem outC_at (c : Dev nD) (t : Fin cfg1.N) (h0 : ¬t.val % 4 = 0) (h1 : t.val % 4 = 3) (xs0 : Vec F S1x3200 .f32) :
    out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0
      = k1_pay3 (k1_pay2 (xblk V c t) (wblk V c t) xs0) (bblk V c t) :=
  outC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0

/-- The accumulator after a group's first step. -/
theorem acc_first (c : Dev nD) (t : Fin cfg1.N) (h0 : t.val % 4 = 0) :
    (outsAt1 V c t.val t.isLt).2 = k1_pay2 (xblk V c t) (wblk V c t) (k1_pay1 (F := F)) := by
  have h1 : ¬t.val % 4 = 3 := by omega
  rw [outsAt1_A V c t h0 h1]
  dsimp only
  exact soutA_at V c t h0 h1

/-- The accumulator after any other step, from what the step before left. -/
theorem acc_next (c : Dev nD) (t : Fin cfg1.N) (h0 : ¬t.val % 4 = 0) :
    (outsAt1 V c t.val t.isLt).2
      = k1_pay2 (xblk V c t) (wblk V c t) (outsAt1 V c (t.val - 1) (Nat.lt_of_le_of_lt (Nat.sub_le _ _) t.isLt)).2 := by
  by_cases h1 : t.val % 4 = 3
  · rw [outsAt1_C V c t h0 h1]
    dsimp only
    exact soutC_at V c t h0 h1 _
  · rw [outsAt1_B V c t h0 h1]
    dsimp only
    exact soutB_at V c t h0 h1 _

/-- The output's buffer after a group's last step: that step's accumulator plus the bias block. -/
theorem out_last (c : Dev nD) (t : Fin cfg1.N) (h1 : t.val % 4 = 3) :
    (outsAt1 V c t.val t.isLt).1 = k1_pay3 (outsAt1 V c t.val t.isLt).2 (bblk V c t) := by
  have h0 : ¬t.val % 4 = 0 := by omega
  rw [outsAt1_C V c t h0 h1]
  dsimp only
  rw [soutC_at V c t h0 h1 _]
  exact outC_at V c t h0 h1 _

end Blocks

/-! ## Over the extended reals -/

variable (V : (c : Dev nD) → (b : Ref sig .tc) → Buf (Elt Ideal) ((c : Thread nD τ).loc b))

/-- The products the step at point t adds at column q are block (t % 4)'s share of logit (t / 4)·3200 + q. -/
theorem step_eq_part (c : Dev nD) (t : Fin cfg1.N) (q : Fin 3200) (n : Fin 32000) (k : Fin 4)
    (hn : n.val = t.val / 4 * 3200 + q.val) (hk : k.val = t.val % 4) :
    ∑ r : Fin 1024, xblk V c t (ix2 (0 : Fin 1) r) * wblk V c t (ix2 q r)
      = part (hidArr V c) (wArr V c) n k := by
  unfold part
  refine Finset.sum_congr rfl fun r _ => ?_
  have hj : (⟨1024 * k.val + r.val, by have := k.isLt; have := r.isLt; omega⟩ : Fin 4096).val = t.val % 4 * 1024 + r.val := by
    show 1024 * k.val + r.val = _; omega
  rw [xblk_apply V c t r _ hj, wblk_apply V c t q r n _ hn hj]

/-- The accumulator's column q after step s (0 beyond the grid). -/
def accAt (c : Dev nD) (q : Fin 3200) (s : ℕ) : EReal :=
  if h : s < cfg1.N then (outsAt1 V c s h).2 (ix2 (0 : Fin 1) q) else 0

/-- The products step s adds at column q (0 beyond the grid). -/
def stepAt (c : Dev nD) (q : Fin 3200) (s : ℕ) : EReal :=
  if h : s < cfg1.N then ∑ r : Fin 1024, xblk V c ⟨s, h⟩ (ix2 (0 : Fin 1) r) * wblk V c ⟨s, h⟩ (ix2 q r) else 0

/-- A group's first step holds its own products. -/
theorem accAt_first (c : Dev nD) (q : Fin 3200) (s : ℕ) (hs : s < cfg1.N) (h0 : s % 4 = 0) : accAt V c q s = stepAt V c q s := by
  unfold accAt stepAt
  rw [dif_pos hs, dif_pos hs]
  refine (congrFun (acc_first V c ⟨s, hs⟩ h0) (ix2 (0 : Fin 1) q)).trans ?_
  exact k1_pay2_reset_apply (xblk V c ⟨s, hs⟩) (wblk V c ⟨s, hs⟩) q

/-- Any other step adds its products to what the step before left. -/
theorem accAt_next (c : Dev nD) (q : Fin 3200) (s : ℕ) (hs : s < cfg1.N) (h0 : s % 4 ≠ 0) :
    accAt V c q s = accAt V c q (s - 1) + stepAt V c q s := by
  unfold accAt stepAt
  rw [dif_pos hs, dif_pos hs, dif_pos (Nat.lt_of_le_of_lt (Nat.sub_le _ _) hs)]
  refine (congrFun (acc_next V c ⟨s, hs⟩ h0) (ix2 (0 : Fin 1) q)).trans ?_
  exact k1_pay2_apply (xblk V c ⟨s, hs⟩) (wblk V c ⟨s, hs⟩) _ q

/-- After a group's last step the output's buffer holds, at column q, logit (t / 4)·3200 + q. -/
theorem out_last_apply (c : Dev nD) (t : Fin cfg1.N) (h3 : t.val % 4 = 3) (q : Fin 3200) (n : Fin 32000)
    (hn : n.val = t.val / 4 * 3200 + q.val) :
    (outsAt1 V c t.val t.isLt).1 (ix2 (0 : Fin 1) q) = Cert.Spec.logit (hidArr V c) (wArr V c) (bArr V c) n := by
  have hN : cfg1.N = 40 := N_1
  refine (congrFun (out_last V c t h3) (ix2 (0 : Fin 1) q)).trans ?_
  refine (k1_pay3_apply _ (bblk V c t) q).trans ?_
  rw [bblk_apply V c t q n hn]
  have hacc : (outsAt1 V c t.val t.isLt).2 (ix2 (0 : Fin 1) q) = accAt V c q t.val := by
    unfold accAt; rw [dif_pos t.isLt]
  rw [hacc]
  refine acc_last4_logit (hidArr V c) (wArr V c) (bArr V c) n cfg1.N (accAt V c q) (stepAt V c q)
    (fun s hs h0 => accAt_first V c q s hs h0) (fun s hs h0 => accAt_next V c q s hs h0) t.val t.isLt h3 fun k => ?_
  have hk : 4 * (t.val / 4) + k.val < cfg1.N := by have := t.isLt; have := k.isLt; omega
  unfold stepAt
  rw [dif_pos hk]
  refine step_eq_part V c ⟨4 * (t.val / 4) + k.val, hk⟩ q n k ?_ ?_
  · show n.val = (4 * (t.val / 4) + k.val) / 4 * 3200 + q.val
    have := k.isLt; omega
  · show k.val = (4 * (t.val / 4) + k.val) % 4
    have := k.isLt; omega

/-! ## From the blocks to the row -/

/-- An index of the logits row is in point t's block iff each coordinate is in the block's range on its axis. -/
theorem mem_blk (t : Fin cfg1.N) (i : S1x32000.Idx) :
    i ∈ ((cfg1.win 3).blk t).view.set ↔ ∀ a : Fin 2, win1_3.index t a * S1x3200.size a ≤ (i a).val ∧ (i a).val < win1_3.index t a * S1x3200.size a + S1x3200.size a := by
  show i ∈ ((View.whole main_v7).slice (win1_3.rect t)).set ↔ _
  rw [View.set_slice_whole, Rect.mem_set_unit]
  exact Iff.rfl

/-- What a group's last step writes back is its block of the logits. -/
theorem flushed_eq (c : Dev nD) (t : Fin cfg1.N) (hf : (cfg1.win 3).flush t = true) :
    (dat1 V c).flushed 3 t
      = ((cfg1.win 3).blk t).view.read (Elt Ideal) (Cert.Spec.logitRow (V c main_v5_0) (V c main_arg11) (V c main_v6)) := by
  have h3 : t.val % 4 = 3 := (flush1_3 t).mp hf
  show (cfg1.win 3).cut (grid1.coords t) ((dat1 V c).after 3 t) = _
  rw [after1_3]
  funext y
  rw [View.read_apply]
  have hy : (y 1).val < 3200 := (y 1).isLt
  show (outsAt1 V c t.val t.isLt).1 ((cfg1.win 3).xinj (grid1.coords t) y)
    = Cert.Spec.logit (V c main_v5_0) (V c main_arg11) (V c main_v6) ((((cfg1.win 3).blk t).view.emb y) 1)
  have hj : ((cfg1.win 3).xinj (grid1.coords t) y : S1x3200.Idx) = ix2 (0 : Fin 1) (⟨(y 1).val, hy⟩ : Fin 3200) := by
    funext a
    match a with
    | ⟨0, _⟩ => exact Fin.ext (by show (y 0).val = 0; have h : (y 0).val < 1 := (y 0).isLt; omega)
    | ⟨1, _⟩ => rfl
  rw [hj]
  refine out_last_apply V c t h3 ⟨(y 1).val, hy⟩ _ ?_
  show win1_3.index t 1 * 3200 + 1 * (y 1).val = t.val / 4 * 3200 + (y 1).val
  rw [(idx1 t).2.2.2.2.2.2.2]; omega

/-- Every entry of the logits row is in the block some group's last step writes back. -/
theorem cover (i : S1x32000.Idx) : ∃ t : Fin cfg1.N, (cfg1.win 3).flush t = true ∧ i ∈ ((cfg1.win 3).blk t).view.set := by
  have hi0 : (i 0).val < 1 := (i 0).isLt
  have hi1 : (i 1).val < 32000 := (i 1).isLt
  have hN : cfg1.N = 40 := N_1
  have ht : 4 * ((i 1).val / 3200) + 3 < cfg1.N := by omega
  refine ⟨⟨4 * ((i 1).val / 3200) + 3, ht⟩, (flush1_3 _).mpr (by show (4 * ((i 1).val / 3200) + 3) % 4 = 3; omega), ?_⟩
  rw [mem_blk]
  obtain ⟨-, -, -, -, -, -, e0, e1⟩ := idx1 ⟨4 * ((i 1).val / 3200) + 3, ht⟩
  intro a
  match a with
  | ⟨0, _⟩ =>
    show win1_3.index ⟨4 * ((i 1).val / 3200) + 3, ht⟩ 0 * 1 ≤ (i 0).val ∧ (i 0).val < win1_3.index ⟨4 * ((i 1).val / 3200) + 3, ht⟩ 0 * 1 + 1
    rw [e0]; omega
  | ⟨1, _⟩ =>
    show win1_3.index ⟨4 * ((i 1).val / 3200) + 3, ht⟩ 1 * 3200 ≤ (i 1).val ∧ (i 1).val < win1_3.index ⟨4 * ((i 1).val / 3200) + 3, ht⟩ 1 * 3200 + 3200
    rw [e1]
    show (4 * ((i 1).val / 3200) + 3) / 4 * 3200 ≤ (i 1).val ∧ (i 1).val < (4 * ((i 1).val / 3200) + 3) / 4 * 3200 + 3200
    omega

/-- The logits row after the region: entry n is logit n of the hidden row, the output weights and the bias row as the
    region finds them. -/
theorem final1_3 (c : Dev nD) : ((dat1 (F := Ideal) V c).arrAt 3 cfg1.N : S1x32000.Idx → EReal)
    = Cert.Spec.logitRow (V c main_v5_0) (V c main_arg11) (V c main_v6) :=
  (dat1 V c).arrAt_eq_of_cover 3 (Cert.Spec.logitRow (V c main_v5_0) (V c main_arg11) (V c main_v6))
    (fun t hf => flushed_eq V c t hf) (cover)

end Cert.KernelIdeal.Val

end
-- ==== Proof.KVal.lean ====
/- The kernel program's three results as the mathematics' rows of the launch arrays.

   Read back through the run's fold of buffer contents: the host lines before the gates region join the
   input row to the previous hidden row and recast the four bias columns as rows; the gates region leaves
   the new hidden row and the new cell row; one host line recasts the output bias; the projection region
   leaves the logits row; the last host lines normalise it. A bias column b : [n,1] recast as a row reads
   b[j,0] at column j. -/
import proofs.«140296_j21131239097236_1_alg».proof.Proof.KI.Args
import proofs.«140296_j21131239097236_1_alg».proof.Proof.R0Value
import proofs.«140296_j21131239097236_1_alg».proof.Proof.R1Value
import proofs.«140296_j21131239097236_1_alg».proof.Proof.Spec
import Idealize.ShloMosaic.Lib.StableHlo.Run
import Idealize.ShloMosaic.Lib.Pipeline.Value
import Idealize.ShloMosaic.Lib.ValueLayout
import Idealize.ShloMosaic.PureOps.Ideal

set_option maxRecDepth 16384

noncomputable section

namespace Cert.KernelIdeal.Val

open Cert.KernelIdeal Cert.KernelIdeal.Frm
open Cert.KernelIdeal.Gen (hostOps0 hostOps1 hostOps2)
open Cert.KernelIdeal.Facts₀
open Idealize.ShloMosaic Idealize.ShloMosaic.TcCoe Idealize.SL.Sem Idealize.ShloMosaic.ValueIdx

variable (m : (ℓ : Loc nD τ sig) → Buf (Elt Ideal) ℓ)

/-- A column [n,1] recast as the row [1,n], read at an entry: column j of the row is row j of the column. -/
theorem col_as_row {n : Nat} (x : (⟨2, ![n, 1]⟩ : Shape).Idx → EReal) (h : (⟨2, ![n, 1]⟩ : Shape).ShapeCasts ⟨2, ![1, n]⟩) (i : (⟨2, ![1, n]⟩ : Shape).Idx) :
    shapeCast (⟨2, ![1, n]⟩ : Shape) x h i = x (ix2 (i 1) (0 : Fin 1)) := by
  refine shapeCast_apply x h i (ix2 (i 1) (0 : Fin 1)) ?_
  rw [Shape.rowMajor_val_two, Shape.rowMajor_val_two]
  have h0 : (i 0).val = 0 := by have := (i 0).isLt; simp at this; omega
  show (i 1).val * 1 + (0 : Fin 1).val = (i 0).val * n + (i 1).val
  rw [h0]; simp

/-- The input row joined to the previous hidden row. -/
def cmb (c : Dev nD) : Cert.Spec.I1x8192 → EReal :=
  concatenate S1x8192 1 [⟨S1x4096, m ((c : Thread nD τ).loc main_arg0)⟩, ⟨S1x4096, m ((c : Thread nD τ).loc main_arg1)⟩] concatenates_S1x4096_S1x4096_S1x8192_d1

/-! ## What the gates region finds -/

theorem V1_main_v0 (c : Dev nD) : (Frm.V1 m c main_v0 : Cert.Spec.I1x8192 → EReal) = cmb m c := by
  show StableHlo.after hostOps0 (fun b => m (c, b)) (Proc.devRef .tc main_v0) = _
  after_results
  rfl

theorem V1_main_v1 (c : Dev nD) : (Frm.V1 m c main_v1 : Cert.Spec.I1x4096 → EReal) = fun i => m ((c : Thread nD τ).loc main_arg4) (ix2 (i 1) (0 : Fin 1)) := by
  have e : (Frm.V1 m c main_v1 : Cert.Spec.I1x4096 → EReal) = shapeCast S1x4096 (m ((c : Thread nD τ).loc main_arg4)) shapeCasts_S4096x1_S1x4096 := by
    show StableHlo.after hostOps0 (fun b => m (c, b)) (Proc.devRef .tc main_v1) = _
    after_results
    rfl
  rw [e]; funext i; exact col_as_row _ _ i

theorem V1_main_v2 (c : Dev nD) : (Frm.V1 m c main_v2 : Cert.Spec.I1x4096 → EReal) = fun i => m ((c : Thread nD τ).loc main_arg6) (ix2 (i 1) (0 : Fin 1)) := by
  have e : (Frm.V1 m c main_v2 : Cert.Spec.I1x4096 → EReal) = shapeCast S1x4096 (m ((c : Thread nD τ).loc main_arg6)) shapeCasts_S4096x1_S1x4096 := by
    show StableHlo.after hostOps0 (fun b => m (c, b)) (Proc.devRef .tc main_v2) = _
    after_results
    rfl
  rw [e]; funext i; exact col_as_row _ _ i

theorem V1_main_v3 (c : Dev nD) : (Frm.V1 m c main_v3 : Cert.Spec.I1x4096 → EReal) = fun i => m ((c : Thread nD τ).loc main_arg8) (ix2 (i 1) (0 : Fin 1)) := by
  have e : (Frm.V1 m c main_v3 : Cert.Spec.I1x4096 → EReal) = shapeCast S1x4096 (m ((c : Thread nD τ).loc main_arg8)) shapeCasts_S4096x1_S1x4096 := by
    show StableHlo.after hostOps0 (fun b => m (c, b)) (Proc.devRef .tc main_v3) = _
    after_results
    rfl
  rw [e]; funext i; exact col_as_row _ _ i

theorem V1_main_v4 (c : Dev nD) : (Frm.V1 m c main_v4 : Cert.Spec.I1x4096 → EReal) = fun i => m ((c : Thread nD τ).loc main_arg10) (ix2 (i 1) (0 : Fin 1)) := by
  have e : (Frm.V1 m c main_v4 : Cert.Spec.I1x4096 → EReal) = shapeCast S1x4096 (m ((c : Thread nD τ).loc main_arg10)) shapeCasts_S4096x1_S1x4096 := by
    show StableHlo.after hostOps0 (fun b => m (c, b)) (Proc.devRef .tc main_v4) = _
    after_results
    rfl
  rw [e]; funext i; exact col_as_row _ _ i

theorem V1_main_arg2 (c : Dev nD) : Frm.V1 m c main_arg2 = m ((c : Thread nD τ).loc main_arg2) := W1_main_arg m c main_arg2 (by decide)
theorem V1_main_arg3 (c : Dev nD) : Frm.V1 m c main_arg3 = m ((c : Thread nD τ).loc main_arg3) := W1_main_arg m c main_arg3 (by decide)
theorem V1_main_arg5 (c : Dev nD) : Frm.V1 m c main_arg5 = m ((c : Thread nD τ).loc main_arg5) := W1_main_arg m c main_arg5 (by decide)
theorem V1_main_arg7 (c : Dev nD) : Frm.V1 m c main_arg7 = m ((c : Thread nD τ).loc main_arg7) := W1_main_arg m c main_arg7 (by decide)
theorem V1_main_arg9 (c : Dev nD) : Frm.V1 m c main_arg9 = m ((c : Thread nD τ).loc main_arg9) := W1_main_arg m c main_arg9 (by decide)

/-! ## What the projection region finds -/

theorem V3_main_arg11 (c : Dev nD) : Frm.V3 m c main_arg11 = m ((c : Thread nD τ).loc main_arg11) := W3_main_arg11 m c

theorem V3_main_v6 (c : Dev nD) : (Frm.V3 m c main_v6 : Cert.Spec.I1x32000 → EReal) = fun i => m ((c : Thread nD τ).loc main_arg12) (ix2 (i 1) (0 : Fin 1)) := by
  have e : (Frm.V3 m c main_v6 : Cert.Spec.I1x32000 → EReal) = shapeCast S1x32000 (W2 m c (Proc.devRef .tc main_arg12)) shapeCasts_S32000x1_S1x32000 := by
    show StableHlo.after hostOps1 (W2 m c) (Proc.devRef .tc main_v6) = _
    after_results
    rfl
  rw [e, W2_main_arg12]; funext i; exact col_as_row _ _ i

/-! ## The results -/

/-- The new cell row. -/
def cellOf (c : Dev nD) : Cert.Spec.I1x4096 → EReal :=
  Cert.Spec.cellRow (cmb m c) (m ((c : Thread nD τ).loc main_arg3)) (m ((c : Thread nD τ).loc main_arg5)) (m ((c : Thread nD τ).loc main_arg9))
    (fun i => m ((c : Thread nD τ).loc main_arg4) (ix2 (i 1) (0 : Fin 1))) (fun i => m ((c : Thread nD τ).loc main_arg6) (ix2 (i 1) (0 : Fin 1)))
    (fun i => m ((c : Thread nD τ).loc main_arg10) (ix2 (i 1) (0 : Fin 1))) (m ((c : Thread nD τ).loc main_arg2))
/-- The new hidden row. -/
def hiddenOf (c : Dev nD) : Cert.Spec.I1x4096 → EReal :=
  Cert.Spec.hiddenRow (cmb m c) (m ((c : Thread nD τ).loc main_arg3)) (m ((c : Thread nD τ).loc main_arg5)) (m ((c : Thread nD τ).loc main_arg7)) (m ((c : Thread nD τ).loc main_arg9))
    (fun i => m ((c : Thread nD τ).loc main_arg4) (ix2 (i 1) (0 : Fin 1))) (fun i => m ((c : Thread nD τ).loc main_arg6) (ix2 (i 1) (0 : Fin 1)))
    (fun i => m ((c : Thread nD τ).loc main_arg8) (ix2 (i 1) (0 : Fin 1))) (fun i => m ((c : Thread nD τ).loc main_arg10) (ix2 (i 1) (0 : Fin 1))) (m ((c : Thread nD τ).loc main_arg2))
/-- The logits row. -/
def logitsOf (c : Dev nD) : Cert.Spec.I1x32000 → EReal :=
  Cert.Spec.logitRow (hiddenOf m c) (m ((c : Thread nD τ).loc main_arg11)) (fun i => m ((c : Thread nD τ).loc main_arg12) (ix2 (i 1) (0 : Fin 1)))

/-- What the gates region's write-backs leave in its first output array is the new hidden row. -/
theorem hidden_eq (c : Dev nD) : ((dat0 (F := Ideal) (Frm.V1 m) c).arrAt 10 cfg0.N : Cert.Spec.I1x4096 → EReal) = hiddenOf m c := by
  rw [R0.final0_10 (Frm.V1 m) c, V1_main_v0, V1_main_v1, V1_main_v2, V1_main_v3, V1_main_v4, V1_main_arg3, V1_main_arg5, V1_main_arg7, V1_main_arg9, V1_main_arg2]
  rfl
/-- … and in its second the new cell row. -/
theorem cell_eq (c : Dev nD) : ((dat0 (F := Ideal) (Frm.V1 m) c).arrAt 11 cfg0.N : Cert.Spec.I1x4096 → EReal) = cellOf m c := by
  rw [R0.final0_11 (Frm.V1 m) c, V1_main_v0, V1_main_v1, V1_main_v2, V1_main_v4, V1_main_arg3, V1_main_arg5, V1_main_arg9, V1_main_arg2]
  rfl

theorem kernel_cell (c : Dev nD) : (W5 m c (Proc.devRef .tc main_v5_1) : Cert.Spec.I1x4096 → EReal) = cellOf m c :=
  (W5_main_v5_1 m c).trans (cell_eq m c)
theorem kernel_hidden (c : Dev nD) : (W5 m c (Proc.devRef .tc main_v5_0) : Cert.Spec.I1x4096 → EReal) = hiddenOf m c :=
  (W5_main_v5_0 m c).trans (hidden_eq m c)
theorem V3_main_v5_0 (c : Dev nD) : (Frm.V3 m c main_v5_0 : Cert.Spec.I1x4096 → EReal) = hiddenOf m c :=
  (W3_main_v5_0 m c).trans (hidden_eq m c)
/-- What the projection region's write-backs leave in its output array is the logits row. -/
theorem kernel_logits (c : Dev nD) : (W4 m c (Proc.devRef .tc main_v7) : Cert.Spec.I1x32000 → EReal) = logitsOf m c := by
  rw [W4_main_v7, final1_3 (Frm.V3 m) c, V3_main_v5_0, V3_main_arg11, V3_main_v6]
  rfl

end Cert.KernelIdeal.Val

end
-- ==== Proof.RefTail.lean ====
/- The log-softmax of a logits row over the extended reals, operation by operation in the order both programs
   print it: subtract the row's maximum, exponentiate, sum, take the logarithm, subtract. -/
import proofs.«140296_j21131239097236_1_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- A logits row less its maximum (the maximum taken from `-∞`, and once more against `-∞`). -/
def shifted (x : FVec Ideal S1x32000 .f32) : FVec Ideal S1x32000 .f32 :=
  subf x
    (broadcastInDim S1x32000 ![0, 1] bcast_S1x1_S1x32000_0_1
      (broadcastInDim S1x1 ![0] bcast_S1_S1x1_0
        (maximumf (broadcastInDim S1 ![] bcast_S_S1 (constant (F := Ideal) S_ .f32 0xFF800000#32))
          (Host.reduce (FloatOps.maximumf (F := Ideal) (φ := .f32)) x (constant (F := Ideal) S_ .f32 0xFF800000#32)
            reducesTo_S1x32000_S1_d1 h_S_))))

/-- The log-softmax of a logits row: the shifted row less the logarithm of the sum of its exponentials. -/
def tail (x : FVec Ideal S1x32000 .f32) : FVec Ideal S1x32000 .f32 :=
  subf (shifted x)
    (broadcastInDim S1x32000 ![0, 1] bcast_S1x1_S1x32000_0_1
      (Host.log
        (broadcastInDim S1x1 ![0] bcast_S1_S1x1_0
          (Host.reduceAdd (Host.exp (shifted x)) (constant (F := Ideal) S_ .f32 0x00000000#32)
            reducesTo_S1x32000_S1_d1 h_S_))))

end Cert.ReferenceIdeal.RefValue

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.KTail.lean ====
/-
  The last stretch of the program takes the logits row to its log-softmax: the row less its maximum, less the logarithm
  of the sum of the exponentials of that difference. Read operation by operation, what it leaves in the result row is
  the same fifteen operations, in the same order, as the reference's log-softmax of the same row.
-/
import proofs.«140296_j21131239097236_1_alg».proof.Proof.KI.Args
import proofs.«140296_j21131239097236_1_alg».proof.Proof.RefTail
import proofs.«140296_j21131239097236_1_alg».proof.Proof.LibStagedRun
import Idealize.ShloMosaic.Lib.StableHlo.Run
import Idealize.ShloMosaic.PureOps.Ideal

set_option maxRecDepth 16384

noncomputable section

namespace Cert.KernelIdeal.Val

open Cert.KernelIdeal Cert.KernelIdeal.Frm
open Cert.KernelIdeal.Gen (hostOps0 hostOps1 hostOps2)
open Idealize.ShloMosaic Idealize.ShloMosaic.TcCoe Idealize.SL.Sem

variable (m : (ℓ : Loc nD τ sig) → Buf (Elt Ideal) ℓ)

/-- The result row after the last stretch is the log-softmax of the logits row before it. -/
theorem kernel_out (c : Dev nD) : (Frm.W5 m c (Proc.devRef .tc main_v8) : S1x32000.Idx → EReal)
    = Cert.ReferenceIdeal.RefValue.tail (Frm.W4 m c (Proc.devRef .tc main_v7)) := by
  show StableHlo.after hostOps2 (Frm.W4 m c) (Proc.devRef .tc main_v8) = _
  after_results
  simp only [Cert.Lib.StagedRun.cast_there_and_back]
  unfold Cert.ReferenceIdeal.RefValue.tail Cert.ReferenceIdeal.RefValue.shifted
  rfl

end Cert.KernelIdeal.Val

end
-- ==== Proof.RefValue.lean ====
/- The reference program's three results, read back at the extended reals: the new cell row, the new hidden row and
   the logits row are the rows of Spec, and the first result is the log-softmax tail applied to the logits row.
   The reference multiplies W[j,k]·cmb[k] where Spec has cmb[k]·W[j,k]; it holds the joined row and the biases as
   columns, read here as rows; its logistic function is 1/(1+e^(-x)) with the literal one. -/
import proofs.«140296_j21131239097236_1_alg».proof.Proof.RefRun
import proofs.«140296_j21131239097236_1_alg».proof.Proof.RefRead
import proofs.«140296_j21131239097236_1_alg».proof.Proof.RefTail
import proofs.«140296_j21131239097236_1_alg».proof.Proof.Spec
import Idealize.ShloMosaic.Lib.IdealHost

set_option maxRecDepth 16384

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

/-! ## Types and the two re-laid operands -/

abbrev C1x4096 : Type := (⟨S1x4096, .f32⟩ : BufTy).Contents (Elt Ideal)
abbrev C1x8192 : Type := (⟨S1x8192, .f32⟩ : BufTy).Contents (Elt Ideal)
abbrev C4096x8192 : Type := (⟨S4096x8192, .f32⟩ : BufTy).Contents (Elt Ideal)
abbrev C4096x1 : Type := (⟨S4096x1, .f32⟩ : BufTy).Contents (Elt Ideal)
abbrev C32000x4096 : Type := (⟨S32000x4096, .f32⟩ : BufTy).Contents (Elt Ideal)
abbrev C32000x1 : Type := (⟨S32000x1, .f32⟩ : BufTy).Contents (Elt Ideal)
abbrev C1x32000 : Type := (⟨S1x32000, .f32⟩ : BufTy).Contents (Elt Ideal)

/-- The input row joined to the previous hidden row, as the program prints it. -/
abbrev CMB (x0 x1 : C1x4096) : C1x8192 :=
  concatenate S1x8192 1 [⟨S1x4096, x0⟩, ⟨S1x4096, x1⟩] concatenates_S1x4096_S1x4096_S1x8192_d1

/-- A bias column `[n, 1]` read as the row `[1, n]`. -/
abbrev brow {n : Nat} (b : (⟨2, ![n, 1]⟩ : Shape).Idx → EReal) : (⟨2, ![1, n]⟩ : Shape).Idx → EReal :=
  fun i => b (ix2 (i 1) (0 : Fin 1))

/-! ## The logistic function as the reference spells it -/

/-- `1 / (1 + e^(-z))` with the literal one is the logistic function. -/
theorem sigmoid (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.logistic z
  rw [Ideal.ofBits_one_f32]
  rfl

/-! ## The four pre-activations -/

/-- The f gate's weighted sum plus bias at hidden unit `q` is Spec's pre-activation: the products commute and
    the transposed joined row is read at `[0, k]`. -/
theorem pre_f (x0 x1 : C1x4096) (W : C4096x8192) (b : C4096x1) (q : Fin 4096) :
    val_main_v3 (F := Ideal) x0 x1 W b (ix2 q (0 : Fin 1)) = Cert.Spec.pre (CMB x0 x1) W (brow b) q := by
  have e : ∀ k : Fin 8192, W (lidx_main_v2 (ix2 q (0 : Fin 1)) k) * val_main_v1 (F := Ideal) x0 x1 (ridx_main_v2 (ix2 q (0 : Fin 1)) k)
      = CMB x0 x1 (ix2 (0 : Fin 1) k) * W (ix2 q k) := fun k => by
    have e1 : idx_main_v1 (ridx_main_v2 (ix2 q (0 : Fin 1)) k) = ix2 (0 : Fin 1) k :=
      funext fun a => Fin.ext (by match a with | ⟨0, _⟩ => rfl | ⟨1, _⟩ => rfl)
    have e2 : lidx_main_v2 (ix2 q (0 : Fin 1)) k = ix2 q k :=
      funext fun a => Fin.ext (by match a with | ⟨0, _⟩ => rfl | ⟨1, _⟩ => rfl)
    rw [val_main_v1_apply, mul_comm, e1, e2]
    rfl
  rw [val_main_v3_apply, val_main_v2_apply, Finset.sum_congr rfl fun k _ => e k]
  rfl

/-- The i gate's weighted sum plus bias at hidden unit `q` is Spec's pre-activation: the products commute and
    the transposed joined row is read at `[0, k]`. -/
theorem pre_i (x0 x1 : C1x4096) (W : C4096x8192) (b : C4096x1) (q : Fin 4096) :
    val_main_v11 (F := Ideal) x0 x1 W b (ix2 q (0 : Fin 1)) = Cert.Spec.pre (CMB x0 x1) W (brow b) q := by
  have e : ∀ k : Fin 8192, W (lidx_main_v10 (ix2 q (0 : Fin 1)) k) * val_main_v1 (F := Ideal) x0 x1 (ridx_main_v10 (ix2 q (0 : Fin 1)) k)
      = CMB x0 x1 (ix2 (0 : Fin 1) k) * W (ix2 q k) := fun k => by
    have e1 : idx_main_v1 (ridx_main_v10 (ix2 q (0 : Fin 1)) k) = ix2 (0 : Fin 1) k :=
      funext fun a => Fin.ext (by match a with | ⟨0, _⟩ => rfl | ⟨1, _⟩ => rfl)
    have e2 : lidx_main_v10 (ix2 q (0 : Fin 1)) k = ix2 q k :=
      funext fun a => Fin.ext (by match a with | ⟨0, _⟩ => rfl | ⟨1, _⟩ => rfl)
    rw [val_main_v1_apply, mul_comm, e1, e2]
    rfl
  rw [val_main_v11_apply, val_main_v10_apply, Finset.sum_congr rfl fun k _ => e k]
  rfl

/-- The o gate's weighted sum plus bias at hidden unit `q` is Spec's pre-activation: the products commute and
    the transposed joined row is read at `[0, k]`. -/
theorem pre_o (x0 x1 : C1x4096) (W : C4096x8192) (b : C4096x1) (q : Fin 4096) :
    val_main_v19 (F := Ideal) x0 x1 W b (ix2 q (0 : Fin 1)) = Cert.Spec.pre (CMB x0 x1) W (brow b) q := by
  have e : ∀ k : Fin 8192, W (lidx_main_v18 (ix2 q (0 : Fin 1)) k) * val_main_v1 (F := Ideal) x0 x1 (ridx_main_v18 (ix2 q (0 : Fin 1)) k)
      = CMB x0 x1 (ix2 (0 : Fin 1) k) * W (ix2 q k) := fun k => by
    have e1 : idx_main_v1 (ridx_main_v18 (ix2 q (0 : Fin 1)) k) = ix2 (0 : Fin 1) k :=
      funext fun a => Fin.ext (by match a with | ⟨0, _⟩ => rfl | ⟨1, _⟩ => rfl)
    have e2 : lidx_main_v18 (ix2 q (0 : Fin 1)) k = ix2 q k :=
      funext fun a => Fin.ext (by match a with | ⟨0, _⟩ => rfl | ⟨1, _⟩ => rfl)
    rw [val_main_v1_apply, mul_comm, e1, e2]
    rfl
  rw [val_main_v19_apply, val_main_v18_apply, Finset.sum_congr rfl fun k _ => e k]
  rfl

/-- The candidate's weighted sum plus bias at hidden unit `q` is Spec's pre-activation: the products commute and
    the transposed joined row is read at `[0, k]`. -/
theorem pre_c (x0 x1 : C1x4096) (W : C4096x8192) (b : C4096x1) (q : Fin 4096) :
    val_main_v27 (F := Ideal) x0 x1 W b (ix2 q (0 : Fin 1)) = Cert.Spec.pre (CMB x0 x1) W (brow b) q := by
  have e : ∀ k : Fin 8192, W (lidx_main_v26 (ix2 q (0 : Fin 1)) k) * val_main_v1 (F := Ideal) x0 x1 (ridx_main_v26 (ix2 q (0 : Fin 1)) k)
      = CMB x0 x1 (ix2 (0 : Fin 1) k) * W (ix2 q k) := fun k => by
    have e1 : idx_main_v1 (ridx_main_v26 (ix2 q (0 : Fin 1)) k) = ix2 (0 : Fin 1) k :=
      funext fun a => Fin.ext (by match a with | ⟨0, _⟩ => rfl | ⟨1, _⟩ => rfl)
    have e2 : lidx_main_v26 (ix2 q (0 : Fin 1)) k = ix2 q k :=
      funext fun a => Fin.ext (by match a with | ⟨0, _⟩ => rfl | ⟨1, _⟩ => rfl)
    rw [val_main_v1_apply, mul_comm, e1, e2]
    rfl
  rw [val_main_v27_apply, val_main_v26_apply, Finset.sum_congr rfl fun k _ => e k]
  rfl

/-! ## The three gates -/

/-- The f gate at hidden unit `q`: one over one plus the exponential of minus the pre-activation is the logistic function. -/
theorem gate_f (x0 x1 : C1x4096) (W : C4096x8192) (b : C4096x1) (q : Fin 4096) :
    val_main_v9 (F := Ideal) x0 x1 W b (ix2 q (0 : Fin 1)) = Ideal.logistic (Cert.Spec.pre (CMB x0 x1) W (brow b) q) := by
  rw [val_main_v9_apply, val_main_v8_apply, val_main_cst_0_apply, val_main_v7_apply, val_main_v6_apply,
    val_main_cst_apply, val_main_v5_apply, val_main_v4_apply, pre_f]
  exact sigmoid _

/-- The i gate at hidden unit `q`: one over one plus the exponential of minus the pre-activation is the logistic function. -/
theorem gate_i (x0 x1 : C1x4096) (W : C4096x8192) (b : C4096x1) (q : Fin 4096) :
    val_main_v17 (F := Ideal) x0 x1 W b (ix2 q (0 : Fin 1)) = Ideal.logistic (Cert.Spec.pre (CMB x0 x1) W (brow b) q) := by
  rw [val_main_v17_apply, val_main_v16_apply, val_main_cst_2_apply, val_main_v15_apply, val_main_v14_apply,
    val_main_cst_1_apply, val_main_v13_apply, val_main_v12_apply, pre_i]
  exact sigmoid _

/-- The o gate at hidden unit `q`: one over one plus the exponential of minus the pre-activation is the logistic function. -/
theorem gate_o (x0 x1 : C1x4096) (W : C4096x8192) (b : C4096x1) (q : Fin 4096) :
    val_main_v25 (F := Ideal) x0 x1 W b (ix2 q (0 : Fin 1)) = Ideal.logistic (Cert.Spec.pre (CMB x0 x1) W (brow b) q) := by
  rw [val_main_v25_apply, val_main_v24_apply, val_main_cst_4_apply, val_main_v23_apply, val_main_v22_apply,
    val_main_cst_3_apply, val_main_v21_apply, val_main_v20_apply, pre_o]
  exact sigmoid _

/-! ## The cell, the hidden value and the logit at an entry -/

/-- The new cell column at hidden unit `q`. -/
theorem cell_at (x0 x1 x2 : C1x4096) (x3 : C4096x8192) (x4 : C4096x1) (x5 : C4096x8192) (x6 : C4096x1)
    (x9 : C4096x8192) (x10 : C4096x1) (q : Fin 4096) :
    val_main_v32 (F := Ideal) x0 x1 x2 x3 x4 x5 x6 x9 x10 (ix2 q (0 : Fin 1))
      = Cert.Spec.cell (CMB x0 x1) x3 x5 x9 (brow x4) (brow x6) (brow x10) x2 q := by
  rw [val_main_v32_apply, val_main_v30_apply, val_main_v31_apply, gate_f, gate_i, val_main_v29_apply, val_main_v28_apply, pre_c]
  have e : idx_main_v29 (ix2 q (0 : Fin 1)) = ix2 (0 : Fin 1) q :=
    funext fun a => Fin.ext (by match a with | ⟨0, _⟩ => rfl | ⟨1, _⟩ => rfl)
  rw [e]
  rfl

/-- The new hidden column at hidden unit `q`. -/
theorem hidden_at (x0 x1 x2 : C1x4096) (x3 : C4096x8192) (x4 : C4096x1) (x5 : C4096x8192) (x6 : C4096x1)
    (x7 : C4096x8192) (x8 : C4096x1) (x9 : C4096x8192) (x10 : C4096x1) (q : Fin 4096) :
    val_main_v34 (F := Ideal) x0 x1 x2 x3 x4 x5 x6 x7 x8 x9 x10 (ix2 q (0 : Fin 1))
      = Cert.Spec.hidden (CMB x0 x1) x3 x5 x7 x9 (brow x4) (brow x6) (brow x8) (brow x10) x2 q := by
  rw [val_main_v34_apply, gate_o, val_main_v33_apply, cell_at]
  rfl

/-- The logits column at output `n`. -/
theorem logit_at (x0 x1 x2 : C1x4096) (x3 : C4096x8192) (x4 : C4096x1) (x5 : C4096x8192) (x6 : C4096x1)
    (x7 : C4096x8192) (x8 : C4096x1) (x9 : C4096x8192) (x10 : C4096x1) (x11 : C32000x4096) (x12 : C32000x1) (n : Fin 32000) :
    val_main_v36 (F := Ideal) x0 x1 x2 x3 x4 x5 x6 x7 x8 x9 x10 x11 x12 (ix2 n (0 : Fin 1))
      = Cert.Spec.logit (Cert.Spec.hiddenRow (CMB x0 x1) x3 x5 x7 x9 (brow x4) (brow x6) (brow x8) (brow x10) x2) x11 (brow x12) n := by
  have e : ∀ k : Fin 4096, x11 (lidx_main_v35 (ix2 n (0 : Fin 1)) k)
        * val_main_v34 (F := Ideal) x0 x1 x2 x3 x4 x5 x6 x7 x8 x9 x10 (ridx_main_v35 (ix2 n (0 : Fin 1)) k)
      = Cert.Spec.hiddenRow (CMB x0 x1) x3 x5 x7 x9 (brow x4) (brow x6) (brow x8) (brow x10) x2 (ix2 (0 : Fin 1) k) * x11 (ix2 n k) := fun k => by
    have e1 : ridx_main_v35 (ix2 n (0 : Fin 1)) k = ix2 k (0 : Fin 1) :=
      funext fun a => Fin.ext (by match a with | ⟨0, _⟩ => rfl | ⟨1, _⟩ => rfl)
    have e2 : lidx_main_v35 (ix2 n (0 : Fin 1)) k = ix2 n k :=
      funext fun a => Fin.ext (by match a with | ⟨0, _⟩ => rfl | ⟨1, _⟩ => rfl)
    rw [mul_comm, e1, e2, hidden_at]
    rfl
  rw [val_main_v36_apply, val_main_v35_apply, Finset.sum_congr rfl fun k _ => e k]
  rfl

/-! ## The three results as rows -/

/-- The new cell row: the transposed cell column is Spec's cell row. -/
theorem cellRow_eq (x0 x1 x2 : C1x4096) (x3 : C4096x8192) (x4 : C4096x1) (x5 : C4096x8192) (x6 : C4096x1)
    (x9 : C4096x8192) (x10 : C4096x1) :
    val_main_v40 (F := Ideal) x0 x1 x2 x3 x4 x5 x6 x9 x10
      = Cert.Spec.cellRow (CMB x0 x1) x3 x5 x9 (brow x4) (brow x6) (brow x10) x2 := by
  funext i
  obtain ⟨p, q, rfl⟩ : ∃ (p : Fin 1) (q : Fin 4096), i = ix2 p q := ⟨i 0, i 1, eq_ix2 i⟩
  obtain rfl : p = 0 := Subsingleton.elim _ _
  have e : idx_main_v40 (ix2 (0 : Fin 1) q) = ix2 q (0 : Fin 1) :=
    funext fun a => Fin.ext (by match a with | ⟨0, _⟩ => rfl | ⟨1, _⟩ => rfl)
  rw [val_main_v40_apply, e, cell_at]
  rfl

/-- The new hidden row: the transposed hidden column is Spec's hidden row. -/
theorem hiddenRow_eq (x0 x1 x2 : C1x4096) (x3 : C4096x8192) (x4 : C4096x1) (x5 : C4096x8192) (x6 : C4096x1)
    (x7 : C4096x8192) (x8 : C4096x1) (x9 : C4096x8192) (x10 : C4096x1) :
    val_main_v39 (F := Ideal) x0 x1 x2 x3 x4 x5 x6 x7 x8 x9 x10
      = Cert.Spec.hiddenRow (CMB x0 x1) x3 x5 x7 x9 (brow x4) (brow x6) (brow x8) (brow x10) x2 := by
  funext i
  obtain ⟨p, q, rfl⟩ : ∃ (p : Fin 1) (q : Fin 4096), i = ix2 p q := ⟨i 0, i 1, eq_ix2 i⟩
  obtain rfl : p = 0 := Subsingleton.elim _ _
  have e : idx_main_v39 (ix2 (0 : Fin 1) q) = ix2 q (0 : Fin 1) :=
    funext fun a => Fin.ext (by match a with | ⟨0, _⟩ => rfl | ⟨1, _⟩ => rfl)
  rw [val_main_v39_apply, e, hidden_at]
  rfl

/-- The logits row the reference hands to its log-softmax: the transposed logits column is Spec's logits row of the
    hidden row. -/
theorem logitRow_eq (x0 x1 x2 : C1x4096) (x3 : C4096x8192) (x4 : C4096x1) (x5 : C4096x8192) (x6 : C4096x1)
    (x7 : C4096x8192) (x8 : C4096x1) (x9 : C4096x8192) (x10 : C4096x1) (x11 : C32000x4096) (x12 : C32000x1) :
    val_main_v37 (F := Ideal) x0 x1 x2 x3 x4 x5 x6 x7 x8 x9 x10 x11 x12
      = Cert.Spec.logitRow (Cert.Spec.hiddenRow (CMB x0 x1) x3 x5 x7 x9 (brow x4) (brow x6) (brow x8) (brow x10) x2) x11 (brow x12) := by
  funext i
  obtain ⟨p, n, rfl⟩ : ∃ (p : Fin 1) (n : Fin 32000), i = ix2 p n := ⟨i 0, i 1, eq_ix2 i⟩
  obtain rfl : p = 0 := Subsingleton.elim _ _
  have e : idx_main_v37 (ix2 (0 : Fin 1) n) = ix2 n (0 : Fin 1) :=
    funext fun a => Fin.ext (by match a with | ⟨0, _⟩ => rfl | ⟨1, _⟩ => rfl)
  rw [val_main_v37_apply, e, logit_at]
  rfl

/-- The first result is the log-softmax tail of the logits row. -/
theorem v38_eq_tail (x0 x1 x2 : C1x4096) (x3 : C4096x8192) (x4 : C4096x1) (x5 : C4096x8192) (x6 : C4096x1)
    (x7 : C4096x8192) (x8 : C4096x1) (x9 : C4096x8192) (x10 : C4096x1) (x11 : C32000x4096) (x12 : C32000x1) :
    val_main_v38 (F := Ideal) x0 x1 x2 x3 x4 x5 x6 x7 x8 x9 x10 x11 x12
      = tail (val_main_v37 (F := Ideal) x0 x1 x2 x3 x4 x5 x6 x7 x8 x9 x10 x11 x12) := by
  generalize hx : val_main_v37 (F := Ideal) x0 x1 x2 x3 x4 x5 x6 x7 x8 x9 x10 x11 x12 = x
  unfold val_main_v38 val_main_call0_v10 val_main_call0_v9 val_main_call0_v8 val_main_call0_v7 val_main_call0_v6
    val_main_call0_cst_1 val_main_call0_v5 val_main_call0_v4 val_main_call0_v3 val_main_call0_v2 val_main_call0_v1
    val_main_call0_cst_0 val_main_call0_v0 val_main_call0_cst
  rw [hx]
  rfl

/-! ## At the launch memory -/

section AtMemory
variable (m : (ℓ : Loc nD τ sig) → Buf (Elt Ideal) ℓ) (c : Dev nD)

/-- (1) The run's term for the third result is Spec's cell row of the arguments. -/
theorem main_v40_eq :
    val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      = Cert.Spec.cellRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg10) (ix2 (i 1) (0 : Fin 1))) (m ((c.tc : Thread nD τ).loc main_arg2)) :=
  cellRow_eq _ _ _ _ _ _ _ _ _

/-- (2) The run's term for the second result is Spec's hidden row of the arguments. -/
theorem main_v39_eq :
    val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      = Cert.Spec.hiddenRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg7)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg8) (ix2 (i 1) (0 : Fin 1))) (fun i : Cert.Spec.I1x4096 => m ((c.tc : Thread nD τ).loc main_arg10) (ix2 (i 1) (0 : Fin 1))) (m ((c.tc : Thread nD τ).loc main_arg2)) :=
  hiddenRow_eq _ _ _ _ _ _ _ _ _ _ _

/-- (3) The logits row the reference hands to its log-softmax is Spec's logits row of that hidden row … -/
theorem main_v37_eq :
    val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      = Cert.Spec.logitRow (Cert.Spec.hiddenRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg7)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg8) (ix2 (i 1) (0 : Fin 1))) (fun i : Cert.Spec.I1x4096 => m ((c.tc : Thread nD τ).loc main_arg10) (ix2 (i 1) (0 : Fin 1))) (m ((c.tc : Thread nD τ).loc main_arg2))) (m ((c.tc : Thread nD τ).loc main_arg11)) (fun i : Cert.Spec.I1x32000 => m ((c.tc : Thread nD τ).loc main_arg12) (ix2 (i 1) (0 : Fin 1))) :=
  logitRow_eq _ _ _ _ _ _ _ _ _ _ _ _ _

/-- … and the first result's term is the log-softmax tail of it. -/
theorem main_v38_eq :
    Cert.ReferenceIdeal.ValueP.res_main_v38 m c
      = tail (Cert.Spec.logitRow (Cert.Spec.hiddenRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg7)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg8) (ix2 (i 1) (0 : Fin 1))) (fun i : Cert.Spec.I1x4096 => m ((c.tc : Thread nD τ).loc main_arg10) (ix2 (i 1) (0 : Fin 1))) (m ((c.tc : Thread nD τ).loc main_arg2))) (m ((c.tc : Thread nD τ).loc main_arg11)) (fun i : Cert.Spec.I1x32000 => m ((c.tc : Thread nD τ).loc main_arg12) (ix2 (i 1) (0 : Fin 1)))) :=
  (val_main_v38_eq m c).trans ((v38_eq_tail _ _ _ _ _ _ _ _ _ _ _ _ _).trans (congrArg tail (main_v37_eq m c)))

end AtMemory

/-! ## The reference's run -/

/-- From any memory with zero counters, every weakly fair execution of the reference terminates with the first result
    the log-softmax tail of Spec's logits row, the second Spec's hidden row, the third Spec's cell row, and the
    thirteen arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = tail (Cert.Spec.logitRow (Cert.Spec.hiddenRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg7)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg8) (ix2 (i 1) (0 : Fin 1))) (fun i : Cert.Spec.I1x4096 => m ((c.tc : Thread nD τ).loc main_arg10) (ix2 (i 1) (0 : Fin 1))) (m ((c.tc : Thread nD τ).loc main_arg2))) (m ((c.tc : Thread nD τ).loc main_arg11)) (fun i : Cert.Spec.I1x32000 => m ((c.tc : Thread nD τ).loc main_arg12) (ix2 (i 1) (0 : Fin 1))))
      ∧ r.2.mem ((c.tc : Thread nD τ).loc main_v39) = Cert.Spec.hiddenRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg7)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg8) (ix2 (i 1) (0 : Fin 1))) (fun i : Cert.Spec.I1x4096 => m ((c.tc : Thread nD τ).loc main_arg10) (ix2 (i 1) (0 : Fin 1))) (m ((c.tc : Thread nD τ).loc main_arg2))
      ∧ r.2.mem ((c.tc : Thread nD τ).loc main_v40) = Cert.Spec.cellRow (concatenate S1x8192 1 [⟨S1x4096, m ((c.tc : Thread nD τ).loc main_arg0)⟩, ⟨S1x4096, m ((c.tc : Thread nD τ).loc main_arg1)⟩] concatenates_S1x4096_S1x4096_S1x8192_d1) (m ((c.tc : Thread nD τ).loc main_arg3)) (m ((c.tc : Thread nD τ).loc main_arg5)) (m ((c.tc : Thread nD τ).loc main_arg9)) (fun i : Cert.Spec.I1x4096 => m ((c.tc : Thread nD τ).loc main_arg4) (ix2 (i 1) (0 : Fin 1))) (fun i : Cert.Spec.I1x4096 => m ((c.tc : Thread nD τ).loc main_arg6) (ix2 (i 1) (0 : Fin 1))) (fun i : Cert.Spec.I1x4096 => m ((c.tc : Thread nD τ).loc main_arg10) (ix2 (i 1) (0 : Fin 1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c).1.trans (main_v38_eq m c),
        (h c).2.1.trans ((val_main_v39_eq _ _ _ _ _ _ _ _ _ _ _).trans (main_v39_eq m c)),
        (h c).2.2.1.trans ((val_main_v40_eq _ _ _ _ _ _ _ _ _).trans (main_v40_eq m c)),
        (h c).2.2.2⟩)
    (Cert.ReferenceIdeal.ValueP.run m ρ)

end Cert.ReferenceIdeal.RefValue

end
-- ==== Proof.lean ====
/- One step of an LSTM cell followed by a projection and a log-softmax: the tiled kernel program and
   the plain reference compute the same three rows over the extended reals.

   The kernel program accumulates each gate's weighted sum in eight column blocks of 1024 and the
   projection's in four, each accumulator reset at its first block; a sum regrouped in blocks is the
   same sum. Its logistic is 1/(1+e^(-x)), which is what the reference spells out; a change of float
   format is the identity over the extended reals. Both programs end in the same log-softmax of the
   logits row. The frames: each program terminates, faults nowhere and leaves its thirteen argument
   arrays as launched. -/
import proofs.«140296_j21131239097236_1_alg».proof.Defs
import proofs.«140296_j21131239097236_1_alg».proof.Proof.Gen.Kernel
import proofs.«140296_j21131239097236_1_alg».proof.Proof.Gen.KernelIdeal
import proofs.«140296_j21131239097236_1_alg».proof.Proof.Gen.ReferenceIdeal
import proofs.«140296_j21131239097236_1_alg».proof.Proof.Gen.Pre_finite_inputs
import proofs.«140296_j21131239097236_1_alg».proof.Proof.K.Args
import proofs.«140296_j21131239097236_1_alg».proof.Proof.KI.Args
import proofs.«140296_j21131239097236_1_alg».proof.Proof.KVal
import proofs.«140296_j21131239097236_1_alg».proof.Proof.KTail
import proofs.«140296_j21131239097236_1_alg».proof.Proof.RefValue
import Idealize.ShloMosaic.Adequacy
import Idealize.ShloMosaic.Init

set_option maxRecDepth 16384

noncomputable section

namespace Cert.Proof

open Idealize.ShloMosaic Idealize.SL.Sem

open Cert.KernelIdeal.Frm (mem_uc) in
/-- The idealized kernel program and the idealized reference, from memories agreeing on the arguments, end with
    the same three rows: the log-softmax of the logits row, the new hidden row, the new cell row. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  fun m ρ m' ρ' _ hagree =>
    ⟨fun c => Cert.ReferenceIdeal.RefValue.tail (Cert.KernelIdeal.Val.logitsOf m c),
     fun c => Cert.KernelIdeal.Val.hiddenOf m c,
     fun c => Cert.KernelIdeal.Val.cellOf m c,
     (θ_run Cert.KernelIdeal.defs _ _).mono (fun r h c =>
        ⟨(h c _ (Cert.KernelIdeal.Frm.mem_uc Cert.KernelIdeal.main_v8 (by decide))).trans
            ((Cert.KernelIdeal.Val.kernel_out m c).trans (congrArg Cert.ReferenceIdeal.RefValue.tail (Cert.KernelIdeal.Val.kernel_logits m c))),
         (h c _ (Cert.KernelIdeal.Frm.mem_uc Cert.KernelIdeal.main_v5_0 (by decide))).trans (Cert.KernelIdeal.Val.kernel_hidden m c),
         (h c _ (Cert.KernelIdeal.Frm.mem_uc Cert.KernelIdeal.main_v5_1 (by decide))).trans (Cert.KernelIdeal.Val.kernel_cell m c),
         (h c _ (Cert.KernelIdeal.Frm.mem_uc Cert.KernelIdeal.main_arg0 (by decide))).trans (Cert.KernelIdeal.Frm.W5_main_arg0 m c),
         (h c _ (Cert.KernelIdeal.Frm.mem_uc Cert.KernelIdeal.main_arg1 (by decide))).trans (Cert.KernelIdeal.Frm.W5_main_arg1 m c),
         (h c _ (Cert.KernelIdeal.Frm.mem_uc Cert.KernelIdeal.main_arg2 (by decide))).trans (Cert.KernelIdeal.Frm.W5_main_arg2 m c),
         (h c _ (Cert.KernelIdeal.Frm.mem_uc Cert.KernelIdeal.main_arg3 (by decide))).trans (Cert.KernelIdeal.Frm.W5_main_arg3 m c),
         (h c _ (Cert.KernelIdeal.Frm.mem_uc Cert.KernelIdeal.main_arg4 (by decide))).trans (Cert.KernelIdeal.Frm.W5_main_arg4 m c),
         (h c _ (Cert.KernelIdeal.Frm.mem_uc Cert.KernelIdeal.main_arg5 (by decide))).trans (Cert.KernelIdeal.Frm.W5_main_arg5 m c),
         (h c _ (Cert.KernelIdeal.Frm.mem_uc Cert.KernelIdeal.main_arg6 (by decide))).trans (Cert.KernelIdeal.Frm.W5_main_arg6 m c),
         (h c _ (Cert.KernelIdeal.Frm.mem_uc Cert.KernelIdeal.main_arg7 (by decide))).trans (Cert.KernelIdeal.Frm.W5_main_arg7 m c),
         (h c _ (Cert.KernelIdeal.Frm.mem_uc Cert.KernelIdeal.main_arg8 (by decide))).trans (Cert.KernelIdeal.Frm.W5_main_arg8 m c),
         (h c _ (Cert.KernelIdeal.Frm.mem_uc Cert.KernelIdeal.main_arg9 (by decide))).trans (Cert.KernelIdeal.Frm.W5_main_arg9 m c),
         (h c _ (Cert.KernelIdeal.Frm.mem_uc Cert.KernelIdeal.main_arg10 (by decide))).trans (Cert.KernelIdeal.Frm.W5_main_arg10 m c),
         (h c _ (Cert.KernelIdeal.Frm.mem_uc Cert.KernelIdeal.main_arg11 (by decide))).trans (Cert.KernelIdeal.Frm.W5_main_arg11 m c),
         (h c _ (Cert.KernelIdeal.Frm.mem_uc Cert.KernelIdeal.main_arg12 (by decide))).trans (Cert.KernelIdeal.Frm.W5_main_arg12 m c)⟩)
       (Cert.KernelIdeal.Frm.run_all m ρ),
     (θ_run Cert.ReferenceIdeal.defs _ _).mono (fun r h c => by
        obtain ⟨h0, h1, h2, h3, h4, h5, h6, h7, h8, h9, h10, h11, h12⟩ := hagree c
        obtain ⟨e38, e39, e40, ea⟩ := h c
        refine ⟨e38.trans ?_, e39.trans ?_, e40.trans ?_, ea⟩
        · rw [h0, h1, h2, h3, h4, h5, h6, h7, h8, h9, h10, h11, h12]; rfl
        · rw [h0, h1, h2, h3, h4, h5, h6, h7, h8, h9, h10]; rfl
        · rw [h0, h1, h2, h3, h4, h5, h6, h9, h10]; rfl)
       (Cert.ReferenceIdeal.RefValue.ref_run m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Frm.frame m ρ,
    fun m ρ _ => Cert.KernelIdeal.Frm.frame m ρ,
    fun m ρ _ => (θ_run Cert.ReferenceIdeal.defs _ _).mono (fun _ h c => (h c).2.2.2) (Cert.ReferenceIdeal.RefValue.ref_run m ρ),
    trivial,
    algebraic⟩

end Cert.Proof

end
